-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x10x10x2x2x32 : Shape := ⟨7, ![32, 64, 10, 10, 2, 2, 32]⟩
abbrev S10x10x2x32 : Shape := ⟨4, ![10, 10, 2, 32]⟩
abbrev S_ : Shape := ⟨0, ![]⟩

class Facts : Prop where
  bcast_S_S32x64x10x10x2x2x32 : S_.BroadcastsInDim S32x64x10x10x2x2x32 (![] : Fin 0 → Fin S32x64x10x10x2x2x32.rank)
  reducesTo_S32x64x10x10x2x2x32_S_d0_1_2_3_4_5_6 : S32x64x10x10x2x2x32.ReducesTo [0, 1, 2, 3, 4, 5, 6] S_
  h_S_ : 0 < S_.numel
  bcast_S_S10x10x2x32 : S_.BroadcastsInDim S10x10x2x32 (![] : Fin 0 → Fin S10x10x2x32.rank)
  reducesTo_S10x10x2x32_S_d0_1_2_3 : S10x10x2x32.ReducesTo [0, 1, 2, 3] S_

variable [Facts]

def fn_part1 {F : FTy → Type} [FloatOps F] (main_v13 : IVec S_ 1) (main_v16 : IVec S10x10x2x32 1) : IVec S_ 1 :=
  let main_c_5 : IVec S_ 1 := constantI S_ 1 1#1
  let main_v17 : IVec S_ 1 := (fun x v => Host.reduce IntOp.andi x v reducesTo_S10x10x2x32_S_d0_1_2_3 h_S_) main_v16 main_c_5
  let main_v18 : IVec S_ 1 := andi main_v13 main_v17
  main_v18

def fn {F : FTy → Type} [FloatOps F] (main_arg0 : FVec F S32x64x10x10x2x2x32 .f32) (main_arg1 : FVec F S32x64x10x10x2x2x32 .f32) (main_arg2 : FVec F S10x10x2x32 .f32) (main_arg3 : FVec F S10x10x2x32 .f32) : IVec S_ 1 :=
  let main_v0 : FVec F S32x64x10x10x2x2x32 .f32 := Host.absf main_arg0
  let main_cst : FVec F S_ .f32 := constant S_ .f32 0x7F800000#32
  let main_v1 : FVec F S32x64x10x10x2x2x32 .f32 := broadcastInDim S32x64x10x10x2x2x32 ![] bcast_S_S32x64x10x10x2x2x32 main_cst
  let main_v2 : IVec S32x64x10x10x2x2x32 1 := cmpf .olt main_v0 main_v1
  let main_c : IVec S_ 1 := constantI S_ 1 1#1
  let main_v3 : IVec S_ 1 := (fun x v => Host.reduce IntOp.andi x v reducesTo_S32x64x10x10x2x2x32_S_d0_1_2_3_4_5_6 h_S_) main_v2 main_c
  let main_v4 : FVec F S32x64x10x10x2x2x32 .f32 := Host.absf main_arg1
  let main_cst_0 : FVec F S_ .f32 := constant S_ .f32 0x7F800000#32
  let main_v5 : FVec F S32x64x10x10x2x2x32 .f32 := broadcastInDim S32x64x10x10x2x2x32 ![] bcast_S_S32x64x10x10x2x2x32 main_cst_0
  let main_v6 : IVec S32x64x10x10x2x2x32 1 := cmpf .olt main_v4 main_v5
  let main_c_1 : IVec S_ 1 := constantI S_ 1 1#1
  let main_v7 : IVec S_ 1 := (fun x v => Host.reduce IntOp.andi x v reducesTo_S32x64x10x10x2x2x32_S_d0_1_2_3_4_5_6 h_S_) main_v6 main_c_1
  let main_v8 : IVec S_ 1 := andi main_v3 main_v7
  let main_v9 : FVec F S10x10x2x32 .f32 := Host.absf main_arg2
  let main_cst_2 : FVec F S_ .f32 := constant S_ .f32 0x7F800000#32
  let main_v10 : FVec F S10x10x2x32 .f32 := broadcastInDim S10x10x2x32 ![] bcast_S_S10x10x2x32 main_cst_2
  let main_v11 : IVec S10x10x2x32 1 := cmpf .olt main_v9 main_v10
  let main_c_3 : IVec S_ 1 := constantI S_ 1 1#1
  let main_v12 : IVec S_ 1 := (fun x v => Host.reduce IntOp.andi x v reducesTo_S10x10x2x32_S_d0_1_2_3 h_S_) main_v11 main_c_3
  let main_v13 : IVec S_ 1 := andi main_v8 main_v12
  let main_v14 : FVec F S10x10x2x32 .f32 := Host.absf main_arg3
  let main_cst_4 : FVec F S_ .f32 := constant S_ .f32 0x7F800000#32
  let main_v15 : FVec F S10x10x2x32 .f32 := broadcastInDim S10x10x2x32 ![] bcast_S_S10x10x2x32 main_cst_4
  let main_v16 : IVec S10x10x2x32 1 := cmpf .olt main_v14 main_v15
  fn_part1 (F := F) main_v13 main_v16
-- ==== Kernel.lean ====
abbrev S32x64x10x10x2x2x32 : Shape := ⟨7, ![32, 64, 10, 10, 2, 2, 32]⟩
abbrev S10x10x2x32 : Shape := ⟨4, ![10, 10, 2, 32]⟩
abbrev S32x64x12800 : Shape := ⟨3, ![32, 64, 12800]⟩
abbrev S1x1 : Shape := ⟨2, ![1, 1]⟩
abbrev S8x8x12800 : Shape := ⟨3, ![8, 8, 12800]⟩
abbrev S1x8x1 : Shape := ⟨3, ![1, 8, 1]⟩
abbrev S8x8 : Shape := ⟨2, ![8, 8]⟩
abbrev S8x8x1 : Shape := ⟨3, ![8, 8, 1]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩
abbrev S200x32 : Shape := ⟨2, ![200, 32]⟩
abbrev S200 : Shape := ⟨1, ![200]⟩
abbrev S200x1 : Shape := ⟨2, ![200, 1]⟩
abbrev S1 : Shape := ⟨1, ![1]⟩

abbrev nBuf : Space → Nat
  | .hbm => 17
  | .vmem => 9
  | .smem => 0
  | _ => 0

abbrev bufTy : (tb : Table) → Fin (tcTables nBuf tb) → BufTy
  | .hbm, ⟨0, _⟩ => ⟨S32x64x10x10x2x2x32, .f32⟩
  | .hbm, ⟨1, _⟩ => ⟨S32x64x10x10x2x2x32, .f32⟩
  | .hbm, ⟨2, _⟩ => ⟨S10x10x2x32, .f32⟩
  | .hbm, ⟨3, _⟩ => ⟨S10x10x2x32, .f32⟩
  | .hbm, ⟨4, _⟩ => ⟨S32x64x12800, .f32⟩
  | .hbm, ⟨5, _⟩ => ⟨S32x64x12800, .f32⟩
  | .hbm, ⟨6, _⟩ => ⟨S1x1, .f32⟩
  | .hbm, ⟨7, _⟩ => ⟨S_, .f32⟩
  | .hbm, ⟨8, _⟩ => ⟨S200x32, .f32⟩
  | .hbm, ⟨9, _⟩ => ⟨S200x32, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S8x8x12800, .f32⟩
  | .local _ .vmem, ⟨1, _⟩ => ⟨S8x8x12800, .f32⟩
  | .local _ .vmem, ⟨2, _⟩ => ⟨S8x8x12800, .f32⟩
  | .local _ .vmem, ⟨3, _⟩ => ⟨S8x8x12800, .f32⟩
  | .local _ .vmem, ⟨4, _⟩ => ⟨S1x1, .f32⟩
  | .local _ .vmem, ⟨5, _⟩ => ⟨S1x1, .f32⟩
  | .local _ .vmem, ⟨6, _⟩ => ⟨S200x32, .f32⟩
  | .local _ .vmem, ⟨7, _⟩ => ⟨S200x32, .f32⟩
  | .local _ .vmem, ⟨8, _⟩ => ⟨S1x1, .f32⟩
  | _, _ => ⟨S32x64x10x10x2x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v32 : BitVec 1 := Scalar.cmpi .eq arg0 c3_i32
  let arg1 : BitVec 32 := BitVec.ofNat 32 (i 1).val
  let c7_i32 : BitVec 32 := 7#32
  let v33 : BitVec 1 := Scalar.cmpi .eq arg1 c7_i32
  let v34 : BitVec 1 := Scalar.andi v32 v33
  let v35 : BitVec 32 := Scalar.extui v34
  let c0_i32_13 : BitVec 32 := 0#32
  let v36 : BitVec 1 := Scalar.cmpi .ne v35 c0_i32_13
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x8x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S200x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S200x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S32x64x10x10x2x2x32_S32x64x12800 : S32x64x10x10x2x2x32.ShapeCasts S32x64x12800
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1x8x1_d1_w32 : S1x8x1.Iotas .tc 32 [1]
  natLt_1_32 : 1 < 32
  inb_S8x8x12800_S8x8x12800_0_0_0 : ∀ a, (![0, 0, 0] : Fin 3 → Nat) a + S8x8x12800.size a ≤ S8x8x12800.size a
  h_S8x8x12800 : 0 < S8x8x12800.numel
  shapeCasts_S8x8x12800_S8x8x12800 : S8x8x12800.ShapeCasts S8x8x12800
  broadcasts_S1x8x1_S8x8x12800 : S1x8x1.Broadcasts S8x8x12800
  reduces_S8x8x12800_S8x8 : S8x8x12800.Reduces [2] S8x8
  shapeCasts_S8x8_S8x8x1 : S8x8.ShapeCasts S8x8x1
  reduces_S8x8x1_S8x1 : S8x8x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  shapeCasts_S10x10x2x32_S200x32 : S10x10x2x32.ShapeCasts S200x32
  inb_S200x32_S200x32_0_0 : ∀ a, (![0, 0] : Fin 2 → Nat) a + S200x32.size a ≤ S200x32.size a
  h_S200x32 : 0 < S200x32.numel
  shapeCasts_S200x32_S200x32 : S200x32.ShapeCasts S200x32
  reduces_S200x32_S200 : S200x32.Reduces [1] S200
  shapeCasts_S200_S200x1 : S200.ShapeCasts S200x1
  reduces_S200x1_S1 : S200x1.Reduces [0] S1
  shapeCasts_S1_S1x1 : S1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x12800.size a ≤ S32x64x12800.size a
  hwx0_0 : ∀ i : grid0.Coords, EltTy.bits .f32 = 32 ∨ (Rect.block (s := S32x64x12800) S8x8x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x12800.size a ≤ S32x64x12800.size a
  hwx0_1 : ∀ i : grid0.Coords, EltTy.bits .f32 = 32 ∨ (Rect.block (s := S32x64x12800) S8x8x12800.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S200x32.size a ≤ S200x32.size a
  hwx1_0 : ∀ i : grid1.Coords, EltTy.bits .f32 = 32 ∨ (Rect.block (s := S200x32) S200x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x32.size a ≤ S200x32.size a
  hwx1_1 : ∀ i : grid1.Coords, EltTy.bits .f32 = 32 ∨ (Rect.block (s := S200x32) S200x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_v0) S8x8x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v4) S200x32.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S200x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x64x10x10x2x2x32 : Shape := ⟨7, ![32, 64, 10, 10, 2, 2, 32]⟩
abbrev S10x10x2x32 : Shape := ⟨4, ![10, 10, 2, 32]⟩
abbrev S32x63x10x10x2x2x32 : Shape := ⟨7, ![32, 63, 10, 10, 2, 2, 32]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32x64x10x10x2x2x32, .f32⟩
  | .hbm, ⟨1, _⟩ => ⟨S32x64x10x10x2x2x32, .f32⟩
  | .hbm, ⟨2, _⟩ => ⟨S10x10x2x32, .f32⟩
  | .hbm, ⟨3, _⟩ => ⟨S10x10x2x32, .f32⟩
  | .hbm, ⟨4, _⟩ => ⟨S32x63x10x10x2x2x32, .f32⟩
  | .hbm, ⟨5, _⟩ => ⟨S_, .f32⟩
  | .hbm, ⟨6, _⟩ => ⟨S_, .f32⟩
  | .hbm, ⟨7, _⟩ => ⟨S32x63x10x10x2x2x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S32x64x10x10x2x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  slices_S32x64x10x10x2x2x32_S32x63x10x10x2x2x32_0_0_0_0_0_0_0 : S32x64x10x10x2x2x32.Slices ![0, 0, 0, 0, 0, 0, 0] S32x63x10x10x2x2x32
  reducesTo_S32x63x10x10x2x2x32_S_d0_1_2_3_4_5_6 : S32x63x10x10x2x2x32.ReducesTo [0, 1, 2, 3, 4, 5, 6] S_
  h_S_ : 0 < S_.numel
  reducesTo_S10x10x2x32_S_d0_1_2_3 : S10x10x2x32.ReducesTo [0, 1, 2, 3] S_

variable [Facts₀]

class Facts : Prop extends Facts₀ where

variable [Facts]
-- ==== Proof.K.Blocks.lean ====
/-
  The two kernels' values as functions of the buffers a region finds, at any float instance.

  Region 0 walks a 4 x 8 grid over two [32, 64, 12800] arrays in blocks of [8, 8, 12800]. At each
  point it adds to a one-element scratch the sum, over the block, of (a + b) times a row mask that
  is 1 on rows l < 63 of the second axis and 0 on row 63; the scratch is zeroed at the first point
  and copied to the one-element result at the last. So the scratch after point n is a fold over
  the points 0 .. n (`acc0`), and the result is the fold after the last point.

  Region 1 has one point: its result is the sum over a [200, 32] block of a + b (`out1`).
-/
import proofs.«152909_j65566970741223_1_alg».proof.Proof.Gen.Kernel.Launch
import proofs.«152909_j65566970741223_1_alg».proof.Proof.Gen.Kernel.Skeleton
import proofs.«152909_j65566970741223_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `n` of region 0 leaves in the scratch when it found `prev` there: `prev` plus the masked
    sum of the point's two blocks. -/
def step0 (c : Dev nD) (n : ℕ) (hn : n < cfg0.N) (prev : Vec F S1x1 .f32) : Vec F S1x1 .f32 :=
  k0_pay2 (grid0.coords ⟨n, hn⟩) (iblk0 V c 0 ⟨n, hn⟩) (iblk0 V c 1 ⟨n, hn⟩) prev

/-- The scratch after point `n` of region 0: zeroed before the first point's addition, then one
    addition per point. -/
def acc0 (c : Dev nD) : (n : ℕ) → n < cfg0.N → Vec F S1x1 .f32
  | 0, hn => step0 V c 0 hn (k0_pay1 (F := F))
  | n + 1, hn => step0 V c (n + 1) hn (acc0 c n (Nat.lt_of_succ_lt hn))

theorem acc0_zero (c : Dev nD) (hn : 0 < cfg0.N) : acc0 V c 0 hn = step0 V c 0 hn (k0_pay1 (F := F)) := rfl
theorem acc0_succ (c : Dev nD) (n : ℕ) (hn : n + 1 < cfg0.N) :
    acc0 V c (n + 1) hn = step0 V c (n + 1) hn (acc0 V c n (Nat.lt_of_succ_lt hn)) := rfl

/-- The last point of region 0's grid. -/
def tLast0 : Fin cfg0.N := ⟨31, by rw [show cfg0.N = 32 from N_0]; decide⟩

/-- Region 1's one-element result: the sum of its two blocks. -/
def out1 (c : Dev nD) : Vec F S1x1 .f32 :=
  k1_pay1 (iblk1 V c 0 t1_0) (iblk1 V c 1 t1_0)

end Cert.Kernel.Hand

end
-- ==== Proof.K.Region0.lean ====
/-
  Region 0 (the masked block sums accumulated in a one-element scratch over a 4 x 8 grid): the
  proof data and the body's obligation at every grid point.

  The scratch is the only thing the body carries from point to point. Before the first point it
  holds anything; after point n it holds the fold `acc0 n`. The result window's staging buffer is
  stored only at the last point (where the scratch is copied into it) and is handed back untouched
  at every other point; the pipeline writes it back at the last point only.
-/
import proofs.«152909_j65566970741223_1_alg».proof.Proof.K.Blocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch operand: a whole scoped buffer of the kernel's own. -/
abbrev scM0 : Memref sig .tc .vmem S1x1 .f32 := Memref.whole cc0_scratch0

/-- The core's other scoped buffers that region 0 does not stage (region 1's staging buffers), each at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The region invariant before position `n`: before the first point every scratch at anything (the class's
    invariant); afterwards the scratch at the fold the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ restS0 (F := F) c) ∗ (∃ r, prngReg c r))

/-- The proof data of pipeline 0 on core `c`: the arrays as the region finds them; each input's buffer at its
    block after the body; the result window's buffer at the fold (consulted at the last point only: elsewhere the
    window is idle); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

namespace Region0

/-! ## The invariant, restated -/

/-- The class invariant with the scratch as an owned memref at some contents, beside the other scoped buffers and
    the generator register. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

/-- Before the first point: the class invariant. -/
theorem PhiS_zero (c : Dev nD) (n : ℕ) (h : n ≤ cfg0.N) (hz : n = 0) : PhiS V c n h = Pipeline.ΦA spec0 c := by
  subst hz; rfl

/-- After point `n`: the scratch holds the fold up to `n`. -/
theorem PhiS_succ (c : Dev nD) (n : ℕ) (hn : n < cfg0.N) :
    PhiS V c (n + 1) hn
      = iprop(iprop(owns (c : Thread nD τ) scM0 fullShare (acc0 V c n hn) ∗ restS0 (F := F) c) ∗ (∃ r, prngReg c r)) := rfl

/-- Before a point that is not the first: the scratch holds the fold up to the point before. -/
theorem PhiS_pos (c : Dev nD) (n : ℕ) (h : n ≤ cfg0.N) (hz : n ≠ 0) :
    PhiS V c n h
      = iprop(iprop(owns (c : Thread nD τ) scM0 fullShare (acc0 V c (n - 1) (by omega)) ∗ restS0 (F := F) c) ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The fold, one point at a time -/

/-- At the first point the fold starts from the zero the body stores there. -/
theorem acc0_at_first (c : Dev nD) (t : Fin cfg0.N) (h : t.val = 0) :
    acc0 V c t.val t.isLt = k0_pay2 (grid0.coords t) (iblk0 V c 0 t) (iblk0 V c 1 t) (k0_pay1 (F := F)) := by
  obtain ⟨n, hn⟩ := t
  cases n with
  | zero => rfl
  | succ n => exact absurd h (Nat.succ_ne_zero n)

/-- At every later point it adds the point's masked block sum to the fold of the point before. -/
theorem acc0_at_pos (c : Dev nD) (t : Fin cfg0.N) (h : t.val ≠ 0) :
    acc0 V c t.val t.isLt
      = k0_pay2 (grid0.coords t) (iblk0 V c 0 t) (iblk0 V c 1 t)
          (acc0 V c (t.val - 1) (Nat.lt_of_le_of_lt (Nat.sub_le _ _) t.isLt)) := by
  obtain ⟨n, hn⟩ := t
  cases n with
  | zero => exact absurd rfl h
  | succ n => rfl

/-! ## The body's two conditions over the grid -/

/-- The first conditional of the body: both grid coordinates are zero. -/
abbrev condF (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The second conditional of the body. -/
abbrev condL (i : grid0.Coords) : Prop := k0_cond2 i = 1#1

/-- The first holds at the first point only, -/
theorem hcondF : ∀ t : Fin cfg0.N, condF (grid0.coords t) ↔ t.val = 0 :=
  (by decide +kernel : ∀ t : Fin grid0.N, condF (grid0.coords t) ↔ t.val = 0)
/-- the second at the last point only. -/
theorem hcondL : ∀ t : Fin cfg0.N, condL (grid0.coords t) ↔ t.val = 31 :=
  (by decide +kernel : ∀ t : Fin grid0.N, condL (grid0.coords t) ↔ t.val = 31)

/-- The zero offsets of a rank-2 and of a rank-3 rectangle, as constant functions. -/
theorem z2 : (![0, 0] : Fin S1x1.rank → ℕ) = fun _ => 0 := by
  funext a; fin_cases a <;> rfl
theorem z3 : (![0, 0, 0] : Fin S8x8x12800.rank → ℕ) = fun _ => 0 := by
  funext a; fin_cases a <;> rfl

/-- One store through the whole one-element rectangle covers the buffer. -/
theorem cover1 (p : Vec F S1x1 .f32) (L : List (View.Piece (Elt F) S1x1 .f32)) (y : S1x1.Idx) :
    ∃ pc ∈ ((⟨Rect.unit ![0, 0] S1x1.size inb_S1x1_S1x1_0_0, p⟩ : View.Piece (Elt F) S1x1 .f32) :: L), y ∈ pc.1.set :=
  ⟨_, List.mem_cons_self, View.mem_set_unit_zero z2 inb_S1x1_S1x1_0_0 y⟩

/-! ## Where the windows are idle, and where the result is written back -/

/-- The inputs are never idle. -/
theorem live0 : ∀ t : Fin cfg0.N, cfg0.idle 0 (grid0.coords t) = false := by decide +kernel
theorem live1 : ∀ t : Fin cfg0.N, cfg0.idle 1 (grid0.coords t) = false := by decide +kernel
/-- Off the last point the result window is idle, -/
theorem idle2 : ∀ t : Fin cfg0.N, ¬condL (grid0.coords t) → cfg0.idle 2 (grid0.coords t) = true := by decide +kernel
/-- and is not written back; -/
theorem noFlush2 : ∀ t : Fin cfg0.N, ¬condL (grid0.coords t) → (cfg0.win 2).flush t = false := by decide +kernel
/-- at the last point it is live. -/
theorem live2 : ∀ t : Fin cfg0.N, condL (grid0.coords t) → cfg0.idle 2 (grid0.coords t) = false := by decide +kernel

/-! ## What the inputs' buffers hold when the body is called -/

/-- Each input's current buffer holds its block of the array at every point (both are fetched everywhere, and the
    body leaves them in place). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body on any whole memrefs, case by case

In each case the inputs' buffers come back as found and the scratch ends at the payload of its last store, read
at what the loads before it saw: the inputs' contents, and for the scratch either the zero just stored (first
point) or what it held on entry. At the last point the result buffer ends at that same value. -/

set_option maxHeartbeats 1000000 in
theorem run_first (c : Dev nD) (i : grid0.Coords) (arg2 : Memref sig .tc .vmem S8x8x12800 .f32) (harg2 : arg2.IsWhole)
    (arg3 : Memref sig .tc .vmem S8x8x12800 .f32) (harg3 : arg3.IsWhole) (arg4 : Memref sig .tc .vmem S1x1 .f32) (harg4 : arg4.IsWhole)
    (arg5 : Memref sig .tc .vmem S1x1 .f32) (harg5 : arg5.IsWhole) (hc0 : condF i) (hc1 : ¬condL i)
    (x0 x1 : Vec F S8x8x12800 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 i x0 x1 (k0_pay1 (F := F)))) -∗ K ⟨⟩))
      ⊢ wp frame (wpE (defs₀ (F := F)) Variants.none c none) E (cc0__cs_reduce_kernel i arg2 harg2 arg3 harg3 arg4 harg4 arg5 harg5) K := by
  simp only [cc0__cs_reduce_kernel_eq_skeleton]; unfold cc0__cs_reduce_kernel_skel
  simp only [k0_part1_eq_skeleton]; unfold k0_part1_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover1 _ _), View.canon_cons_unit_zero (S := S1x1) z2]
  simp only [View.readAt_eq_ld, hf0, hf1, View.ld_unit_zero (S := S8x8x12800) z3, View.readCov_unit_zero (S := S1x1) _ z2]
set_option maxHeartbeats 1000000 in
theorem run_mid (c : Dev nD) (i : grid0.Coords) (arg2 : Memref sig .tc .vmem S8x8x12800 .f32) (harg2 : arg2.IsWhole)
    (arg3 : Memref sig .tc .vmem S8x8x12800 .f32) (harg3 : arg3.IsWhole) (arg4 : Memref sig .tc .vmem S1x1 .f32) (harg4 : arg4.IsWhole)
    (arg5 : Memref sig .tc .vmem S1x1 .f32) (harg5 : arg5.IsWhole) (hc0 : ¬condF i) (hc1 : ¬condL i)
    (x0 x1 : Vec F S8x8x12800 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k0_pay2 i x0 x1 xs)) -∗ K ⟨⟩))
      ⊢ wp frame (wpE (defs₀ (F := F)) Variants.none c none) E (cc0__cs_reduce_kernel i arg2 harg2 arg3 harg3 arg4 harg4 arg5 harg5) K := by
  simp only [cc0__cs_reduce_kernel_eq_skeleton]; unfold cc0__cs_reduce_kernel_skel
  simp only [k0_part1_eq_skeleton]; unfold k0_part1_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _ _), View.canon_unit_zero z2]
  simp only [View.readAt_eq_ld, hf0, hf1, hfs, View.ld_unit_zero (S := S1x1) z2, View.ld_unit_zero (S := S8x8x12800) z3]

set_option maxHeartbeats 1000000 in
theorem run_last (c : Dev nD) (i : grid0.Coords) (arg2 : Memref sig .tc .vmem S8x8x12800 .f32) (harg2 : arg2.IsWhole)
    (arg3 : Memref sig .tc .vmem S8x8x12800 .f32) (harg3 : arg3.IsWhole) (arg4 : Memref sig .tc .vmem S1x1 .f32) (harg4 : arg4.IsWhole)
    (arg5 : Memref sig .tc .vmem S1x1 .f32) (harg5 : arg5.IsWhole) (hc0 : ¬condF i) (hc1 : condL i)
    (x0 x1 : Vec F S8x8x12800 .f32) (xs : Vec F S1x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 x1 xs)
            ∗ owns (c : Thread nD τ) arg5 fullShare (k0_pay2 i x0 x1 xs)) -∗ K ⟨⟩))
      ⊢ wp frame (wpE (defs₀ (F := F)) Variants.none c none) E (cc0__cs_reduce_kernel i arg2 harg2 arg3 harg3 arg4 harg4 arg5 harg5) K := by
  simp only [cc0__cs_reduce_kernel_eq_skeleton]; unfold cc0__cs_reduce_kernel_skel
  simp only [k0_part1_eq_skeleton]; unfold k0_part1_skel
  unfold owns
  iintro ⟨⟨%f0, %hf0, H0⟩, ⟨%f1, %hf1, H1⟩, ⟨%dO, %fO, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover1 _ _), View.canon_unit_zero (S := S1x1) z2]
    simp only [View.readAt_eq_ld, hf0, hf1, hfs, View.ld_unit_zero (S := S1x1) z2, View.ld_unit_zero (S := S8x8x12800) z3,
      View.readCov_unit_zero (S := S1x1) _ z2]
  iexists _; isplitr
  swap; · iexact HS
  ipureintro
  sl_unfold_words
  rw [View.read_writes_eq_canon _ _ _ (cover1 _ _), View.canon_unit_zero (S := S1x1) z2]
  simp only [View.readAt_eq_ld, hf0, hf1, hfs, View.ld_unit_zero (S := S1x1) z2, View.ld_unit_zero (S := S8x8x12800) z3]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The closed forms of the two conditions say which of the three cases the point is in.
    At the first point the invariant hands the scratch at anything and takes it back at the fold's first term; at a
    later point it hands it at the fold of the point before and takes it back at this point's. Off the last point
    the result buffer is handed back as found; at the last point it ends at the fold. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0 t], after0_0]
  rw [show (dat0 V c).leavesExact 1 t = owns (c : Thread nD τ) (st0_1 t) fullShare ((dat0 V c).after 1 t) from by
    unfold Dat.leavesExact; rw [live1 t], after0_1]
  have hN : t.val < 32 := lt_of_lt_of_eq t.isLt (show cfg0.N = 32 from N_0)
  by_cases hz : t.val = 0
  · have hcF : condF (grid0.coords t) := (hcondF t).mpr hz
    have hcL : ¬condL (grid0.coords t) := fun h => by have := (hcondL t).mp h; omega
    rw [Dat.leavesExact_idle (dat0 V c) 2 t (idle2 t hcL) (noFlush2 t hcL)]
    rw [acc0_at_first V c t hz]
    rw [PhiS_castSucc V c t, PhiS_zero V c _ _ hz, PhiA0_eq]
    iintro ⟨⟨⟨HS, Hr⟩, Hg⟩, Ho, ⟨%d0, H0⟩, ⟨%d1, H1⟩, H2⟩
    iapply (run_first c (grid0.coords t) _ _ _ _ _ _ _ _ hcF hcL (iblk0 V c 0 t) (iblk0 V c 1 t) Set.univ _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · by_cases hl : t.val = 31
    · have hcF : ¬condF (grid0.coords t) := fun h => hz ((hcondF t).mp h)
      have hcL : condL (grid0.coords t) := (hcondL t).mpr hl
      rw [show (dat0 V c).leavesExact 2 t = owns (c : Thread nD τ) (st0_2 t) fullShare ((dat0 V c).after 2 t) from by
        unfold Dat.leavesExact; rw [live2 t hcL], after0_2]
      rw [acc0_at_pos V c t hz]
      rw [PhiS_castSucc V c t, PhiS_pos V c _ _ hz]
      iintro ⟨⟨⟨HS, Hr⟩, Hg⟩, Ho, ⟨%d0, H0⟩, ⟨%d1, H1⟩, ⟨%d2, H2⟩⟩
      iapply (run_last c (grid0.coords t) _ _ _ _ _ _ _ _ hcF hcL (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hcF : ¬condF (grid0.coords t) := fun h => hz ((hcondF t).mp h)
      have hcL : ¬condL (grid0.coords t) := fun h => hl ((hcondL t).mp h)
      rw [Dat.leavesExact_idle (dat0 V c) 2 t (idle2 t hcL) (noFlush2 t hcL)]
      rw [acc0_at_pos V c t hz]
      rw [PhiS_castSucc V c t, PhiS_pos V c _ _ hz]
      iintro ⟨⟨⟨HS, Hr⟩, Hg⟩, Ho, ⟨%d0, H0⟩, ⟨%d1, H1⟩, H2⟩
      iapply (run_mid c (grid0.coords t) _ _ _ _ _ _ _ _ hcF hcL (iblk0 V c 0 t) (iblk0 V c 1 t) _ Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- After any point but the first the invariant gives the class's back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hr⟩, Hg⟩
  isplitl [HS Hr]
  · isplitl [HS]
    · iexists _; iexact HS
    iexact Hr
  iexact Hg

end Region0

/-- The library's body obligation, at every point. -/
theorem body_obligation0 (c : Dev nD) : BodyObligation (dat0 (F := F) V c) (defs₀ (F := F)) Variants.none () Set.univ := fun t => by
  rw [bigSep_W0, bigSep_W0]
  exact Region0.sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, Region0.PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c :=
  Region0.Phi_out0 V c _ (by rw [Fin.val_last]; have : cfg0.N = 32 := N_0; omega)

end Cert.Kernel.Hand

end
-- ==== Proof.K.Region1.lean ====
/-
  Region 1 (one grid point: the sum of a + b over a [200, 32] block, stored into a one-element
  result): the proof data and the body's obligation.
-/
import proofs.«152909_j65566970741223_1_alg».proof.Proof.K.Blocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 1 on core `c`: the arrays as the region finds them; each input's buffer at its
    block after the body and the result's at the sum of the two blocks; the class's invariant (the scoped rest
    and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-! ## The two inputs' staging buffers hold their blocks -/

/-- Window 0 is an input the body only reads: whatever point the pipeline is at, fetched there or not, its
    current staging buffer holds the block of the first operand. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s; rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- Window 1, the second operand, likewise. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s; rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-! ## The body on whole buffers -/

/-- The one store of the body, through the whole [1, 1] rectangle, covers the result's buffer. -/
theorem cover_store1 (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  View.cover_of_tiled _ S1x1.size (by rfl) y

/-- The offsets of the body's loads and of its store are zero on every axis. -/
theorem zeros2 : (![0, 0] : Fin 2 → ℕ) = fun _ => 0 := by
  funext a; match a with | ⟨0, _⟩ => rfl | ⟨1, _⟩ => rfl

set_option maxHeartbeats 1000000 in
/-- The body, given the two operands' buffers at `x0` and `x1` and the result's buffer at anything, returns the
    operands' buffers as they were and the result's at the body's payload of them, `k1_pay1 x0 x1` (the
    add-reductions, one axis after the other, of `x0 + x1`): the two loads through the whole rectangle read the
    buffers themselves, and the one store through the whole [1, 1] rectangle leaves exactly its payload. -/
theorem sound_kernel1 (c : Dev nD) (E : Set ℕ) (i : grid1.Coords)
    (arg1 : Memref sig .tc .vmem S200x32 .f32) (harg1 : arg1.IsWhole)
    (arg2 : Memref sig .tc .vmem S200x32 .f32) (harg2 : arg2.IsWhole)
    (arg3 : Memref sig .tc .vmem S1x1 .f32) (harg3 : arg3.IsWhole)
    (x0 x1 : Vec F S200x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__tp_reduce_kernel i arg1 harg1 arg2 harg2 arg3 harg3) K := by
  simp only [cc1__tp_reduce_kernel_eq_skeleton]; unfold cc1__tp_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_store1 _), View.canon_unit_zero (S := S1x1) zeros2 inb_S1x1_S1x1_0_0,
    View.readAt_eq_ld, View.readAt_eq_ld,
    View.ld_unit_zero (S := S200x32) zeros2 inb_S200x32_S200x32_0_0, View.ld_unit_zero (S := S200x32) zeros2 inb_S200x32_S200x32_0_0]

/-! ## The body at a point of the grid -/

/-- The body as the pipeline calls it at point `t`, the three windows written out one by one: it is handed the
    invariant, the core's debts and each window's current staging buffer at what the pipeline left there, and
    returns the invariant and the debts unread, the operands' buffers at their blocks and the result's at the
    payload of the two blocks. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact body_at1 V c t

end Cert.Kernel.Hand

end
-- ==== Proof.K.Run.lean ====
/-
  The run of @main: three stretches of host operations around the two kernel regions.

  Between two items a core's unscoped buffers are held whole at a valuation: the launch memory,
  then each host stretch applied, then each region's arrays at what its write-backs leave (`W0` …
  `W5`). Each region enters from the valuation before it with its arrays split out, runs its
  pipeline under its body's obligation, and leaves at the next valuation. At the end every
  unscoped buffer of the final memory is read off `W5`.
-/
import proofs.«152909_j65566970741223_1_alg».proof.Proof.K.Region0
import proofs.«152909_j65566970741223_1_alg».proof.Proof.K.Region1
import proofs.«152909_j65566970741223_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the contents at the return. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation. -/
abbrev Tₙ (c : Dev nD) : sProp 𝕄 := StableHlo.held (c : Thread nD τ) (Pipeline.ucRefs τ sig) (W5 m c)

/-! ## The regions as segments -/

set_option backward.isDefEq.respectTransparency.types false in
/-- Region 0 entered from `W1`, left at `W2`. Its invariant is entered from the class's (`hin0`) and gives it back (`hout0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 entered from `W3`, left at `W4`; its invariant is the class's throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      unfold Tₙ StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.K.RunArgs.lean ====
/-
  The arguments at the return: no host stretch writes an argument and no region may change one,
  so the last valuation holds each argument as launched; hence the frame.
-/
import proofs.«152909_j65566970741223_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

/-! ## No item writes an argument -/

theorem W2_main_arg2 (c : Dev nD) : W2 m c (Proc.devRef .tc main_arg2) = m ((c : Thread nD τ).loc main_arg2) :=
  (W2_of_ne m c main_arg2 (by decide)).trans <| (W1_of m c main_arg2 (by decide)).trans rfl
theorem W2_main_arg3 (c : Dev nD) : W2 m c (Proc.devRef .tc main_arg3) = m ((c : Thread nD τ).loc main_arg3) :=
  (W2_of_ne m c main_arg3 (by decide)).trans <| (W1_of m c main_arg3 (by decide)).trans rfl

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of_ne m c main_arg2 (by decide)).trans <| (W3_of m c main_arg2 (by decide)).trans <|
    W2_main_arg2 m c
theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans <|
    W2_main_arg3 m c

/-- The frame: every weakly fair execution of @main terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Hand

end
-- ==== Proof.KI.Blocks.lean ====
/-
  The two kernels' values as functions of the buffers a region finds, at any float instance.

  Region 0 walks a 4 x 8 grid over two [32, 64, 12800] arrays in blocks of [8, 8, 12800]. At each
  point it adds to a one-element scratch the sum, over the block, of (a + b) times a row mask that
  is 1 on rows l < 63 of the second axis and 0 on row 63; the scratch is zeroed at the first point
  and copied to the one-element result at the last. So the scratch after point n is a fold over
  the points 0 .. n (`acc0`), and the result is the fold after the last point.

  Region 1 has one point: its result is the sum over a [200, 32] block of a + b (`out1`).
-/
import proofs.«152909_j65566970741223_1_alg».proof.Proof.Gen.KernelIdeal.Launch
import proofs.«152909_j65566970741223_1_alg».proof.Proof.Gen.KernelIdeal.Skeleton
import proofs.«152909_j65566970741223_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `n` of region 0 leaves in the scratch when it found `prev` there: `prev` plus the masked
    sum of the point's two blocks. -/
def step0 (c : Dev nD) (n : ℕ) (hn : n < cfg0.N) (prev : Vec F S1x1 .f32) : Vec F S1x1 .f32 :=
  k0_pay2 (grid0.coords ⟨n, hn⟩) (iblk0 V c 0 ⟨n, hn⟩) (iblk0 V c 1 ⟨n, hn⟩) prev

/-- The scratch after point `n` of region 0: zeroed before the first point's addition, then one
    addition per point. -/
def acc0 (c : Dev nD) : (n : ℕ) → n < cfg0.N → Vec F S1x1 .f32
  | 0, hn => step0 V c 0 hn (k0_pay1 (F := F))
  | n + 1, hn => step0 V c (n + 1) hn (acc0 c n (Nat.lt_of_succ_lt hn))

theorem acc0_zero (c : Dev nD) (hn : 0 < cfg0.N) : acc0 V c 0 hn = step0 V c 0 hn (k0_pay1 (F := F)) := rfl
theorem acc0_succ (c : Dev nD) (n : ℕ) (hn : n + 1 < cfg0.N) :
    acc0 V c (n + 1) hn = step0 V c (n + 1) hn (acc0 V c n (Nat.lt_of_succ_lt hn)) := rfl

/-- The last point of region 0's grid. -/
def tLast0 : Fin cfg0.N := ⟨31, by rw [show cfg0.N = 32 from N_0]; decide⟩

/-- Region 1's one-element result: the sum of its two blocks. -/
def out1 (c : Dev nD) : Vec F S1x1 .f32 :=
  k1_pay1 (iblk1 V c 0 t1_0) (iblk1 V c 1 t1_0)

end Cert.KernelIdeal.Hand

end
-- ==== Proof.KI.Region0.lean ====
/-
  Region 0 (the masked block sums accumulated in a one-element scratch over a 4 x 8 grid): the
  proof data and the body's obligation at every grid point.

  The scratch is the only thing the body carries from point to point. Before the first point it
  holds anything; after point n it holds the fold `acc0 n`. The result window's staging buffer is
  stored only at the last point (where the scratch is copied into it) and is handed back untouched
  at every other point; the pipeline writes it back at the last point only.
-/
import proofs.«152909_j65566970741223_1_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch operand: a whole scoped buffer of the kernel's own. -/
abbrev scM0 : Memref sig .tc .vmem S1x1 .f32 := Memref.whole cc0_scratch0

/-- The core's other scoped buffers that region 0 does not stage (region 1's staging buffers), each at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The region invariant before position `n`: before the first point every scratch at anything (the class's
    invariant); afterwards the scratch at the fold the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ restS0 (F := F) c) ∗ (∃ r, prngReg c r))

/-- The proof data of pipeline 0 on core `c`: the arrays as the region finds them; each input's buffer at its
    block after the body; the result window's buffer at the fold (consulted at the last point only: elsewhere the
    window is idle); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

namespace Region0

/-! ## The invariant, restated -/

/-- The class invariant with the scratch as an owned memref at some contents, beside the other scoped buffers and
    the generator register. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

/-- Before the first point: the class invariant. -/
theorem PhiS_zero (c : Dev nD) (n : ℕ) (h : n ≤ cfg0.N) (hz : n = 0) : PhiS V c n h = Pipeline.ΦA spec0 c := by
  subst hz; rfl

/-- After point `n`: the scratch holds the fold up to `n`. -/
theorem PhiS_succ (c : Dev nD) (n : ℕ) (hn : n < cfg0.N) :
    PhiS V c (n + 1) hn
      = iprop(iprop(owns (c : Thread nD τ) scM0 fullShare (acc0 V c n hn) ∗ restS0 (F := F) c) ∗ (∃ r, prngReg c r)) := rfl

/-- Before a point that is not the first: the scratch holds the fold up to the point before. -/
theorem PhiS_pos (c : Dev nD) (n : ℕ) (h : n ≤ cfg0.N) (hz : n ≠ 0) :
    PhiS V c n h
      = iprop(iprop(owns (c : Thread nD τ) scM0 fullShare (acc0 V c (n - 1) (by omega)) ∗ restS0 (F := F) c) ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The fold, one point at a time -/

/-- At the first point the fold starts from the zero the body stores there. -/
theorem acc0_at_first (c : Dev nD) (t : Fin cfg0.N) (h : t.val = 0) :
    acc0 V c t.val t.isLt = k0_pay2 (grid0.coords t) (iblk0 V c 0 t) (iblk0 V c 1 t) (k0_pay1 (F := F)) := by
  obtain ⟨n, hn⟩ := t
  cases n with
  | zero => rfl
  | succ n => exact absurd h (Nat.succ_ne_zero n)

/-- At every later point it adds the point's masked block sum to the fold of the point before. -/
theorem acc0_at_pos (c : Dev nD) (t : Fin cfg0.N) (h : t.val ≠ 0) :
    acc0 V c t.val t.isLt
      = k0_pay2 (grid0.coords t) (iblk0 V c 0 t) (iblk0 V c 1 t)
          (acc0 V c (t.val - 1) (Nat.lt_of_le_of_lt (Nat.sub_le _ _) t.isLt)) := by
  obtain ⟨n, hn⟩ := t
  cases n with
  | zero => exact absurd rfl h
  | succ n => rfl

/-! ## The body's two conditions over the grid -/

/-- The first conditional of the body: both grid coordinates are zero. -/
abbrev condF (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The second conditional of the body. -/
abbrev condL (i : grid0.Coords) : Prop := k0_cond2 i = 1#1

/-- The first holds at the first point only, -/
theorem hcondF : ∀ t : Fin cfg0.N, condF (grid0.coords t) ↔ t.val = 0 :=
  (by decide +kernel : ∀ t : Fin grid0.N, condF (grid0.coords t) ↔ t.val = 0)
/-- the second at the last point only. -/
theorem hcondL : ∀ t : Fin cfg0.N, condL (grid0.coords t) ↔ t.val = 31 :=
  (by decide +kernel : ∀ t : Fin grid0.N, condL (grid0.coords t) ↔ t.val = 31)

/-- The zero offsets of a rank-2 and of a rank-3 rectangle, as constant functions. -/
theorem z2 : (![0, 0] : Fin S1x1.rank → ℕ) = fun _ => 0 := by
  funext a; fin_cases a <;> rfl
theorem z3 : (![0, 0, 0] : Fin S8x8x12800.rank → ℕ) = fun _ => 0 := by
  funext a; fin_cases a <;> rfl

/-- One store through the whole one-element rectangle covers the buffer. -/
theorem cover1 (p : Vec F S1x1 .f32) (L : List (View.Piece (Elt F) S1x1 .f32)) (y : S1x1.Idx) :
    ∃ pc ∈ ((⟨Rect.unit ![0, 0] S1x1.size inb_S1x1_S1x1_0_0, p⟩ : View.Piece (Elt F) S1x1 .f32) :: L), y ∈ pc.1.set :=
  ⟨_, List.mem_cons_self, View.mem_set_unit_zero z2 inb_S1x1_S1x1_0_0 y⟩

/-! ## Where the windows are idle, and where the result is written back -/

/-- The inputs are never idle. -/
theorem live0 : ∀ t : Fin cfg0.N, cfg0.idle 0 (grid0.coords t) = false := by decide +kernel
theorem live1 : ∀ t : Fin cfg0.N, cfg0.idle 1 (grid0.coords t) = false := by decide +kernel
/-- Off the last point the result window is idle, -/
theorem idle2 : ∀ t : Fin cfg0.N, ¬condL (grid0.coords t) → cfg0.idle 2 (grid0.coords t) = true := by decide +kernel
/-- and is not written back; -/
theorem noFlush2 : ∀ t : Fin cfg0.N, ¬condL (grid0.coords t) → (cfg0.win 2).flush t = false := by decide +kernel
/-- at the last point it is live. -/
theorem live2 : ∀ t : Fin cfg0.N, condL (grid0.coords t) → cfg0.idle 2 (grid0.coords t) = false := by decide +kernel

/-! ## What the inputs' buffers hold when the body is called -/

/-- Each input's current buffer holds its block of the array at every point (both are fetched everywhere, and the
    body leaves them in place). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body on any whole memrefs, case by case

In each case the inputs' buffers come back as found and the scratch ends at the payload of its last store, read
at what the loads before it saw: the inputs' contents, and for the scratch either the zero just stored (first
point) or what it held on entry. At the last point the result buffer ends at that same value. -/

set_option maxHeartbeats 1000000 in
theorem run_first (c : Dev nD) (i : grid0.Coords) (arg2 : Memref sig .tc .vmem S8x8x12800 .f32) (harg2 : arg2.IsWhole)
    (arg3 : Memref sig .tc .vmem S8x8x12800 .f32) (harg3 : arg3.IsWhole) (arg4 : Memref sig .tc .vmem S1x1 .f32) (harg4 : arg4.IsWhole)
    (arg5 : Memref sig .tc .vmem S1x1 .f32) (harg5 : arg5.IsWhole) (hc0 : condF i) (hc1 : ¬condL i)
    (x0 x1 : Vec F S8x8x12800 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 i x0 x1 (k0_pay1 (F := F)))) -∗ K ⟨⟩))
      ⊢ wp frame (wpE (defs₀ (F := F)) Variants.none c none) E (cc0__cs_reduce_kernel i arg2 harg2 arg3 harg3 arg4 harg4 arg5 harg5) K := by
  simp only [cc0__cs_reduce_kernel_eq_skeleton]; unfold cc0__cs_reduce_kernel_skel
  simp only [k0_part1_eq_skeleton]; unfold k0_part1_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover1 _ _), View.canon_cons_unit_zero (S := S1x1) z2]
  simp only [View.readAt_eq_ld, hf0, hf1, View.ld_unit_zero (S := S8x8x12800) z3, View.readCov_unit_zero (S := S1x1) _ z2]
set_option maxHeartbeats 1000000 in
theorem run_mid (c : Dev nD) (i : grid0.Coords) (arg2 : Memref sig .tc .vmem S8x8x12800 .f32) (harg2 : arg2.IsWhole)
    (arg3 : Memref sig .tc .vmem S8x8x12800 .f32) (harg3 : arg3.IsWhole) (arg4 : Memref sig .tc .vmem S1x1 .f32) (harg4 : arg4.IsWhole)
    (arg5 : Memref sig .tc .vmem S1x1 .f32) (harg5 : arg5.IsWhole) (hc0 : ¬condF i) (hc1 : ¬condL i)
    (x0 x1 : Vec F S8x8x12800 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k0_pay2 i x0 x1 xs)) -∗ K ⟨⟩))
      ⊢ wp frame (wpE (defs₀ (F := F)) Variants.none c none) E (cc0__cs_reduce_kernel i arg2 harg2 arg3 harg3 arg4 harg4 arg5 harg5) K := by
  simp only [cc0__cs_reduce_kernel_eq_skeleton]; unfold cc0__cs_reduce_kernel_skel
  simp only [k0_part1_eq_skeleton]; unfold k0_part1_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _ _), View.canon_unit_zero z2]
  simp only [View.readAt_eq_ld, hf0, hf1, hfs, View.ld_unit_zero (S := S1x1) z2, View.ld_unit_zero (S := S8x8x12800) z3]

set_option maxHeartbeats 1000000 in
theorem run_last (c : Dev nD) (i : grid0.Coords) (arg2 : Memref sig .tc .vmem S8x8x12800 .f32) (harg2 : arg2.IsWhole)
    (arg3 : Memref sig .tc .vmem S8x8x12800 .f32) (harg3 : arg3.IsWhole) (arg4 : Memref sig .tc .vmem S1x1 .f32) (harg4 : arg4.IsWhole)
    (arg5 : Memref sig .tc .vmem S1x1 .f32) (harg5 : arg5.IsWhole) (hc0 : ¬condF i) (hc1 : condL i)
    (x0 x1 : Vec F S8x8x12800 .f32) (xs : Vec F S1x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 x1 xs)
            ∗ owns (c : Thread nD τ) arg5 fullShare (k0_pay2 i x0 x1 xs)) -∗ K ⟨⟩))
      ⊢ wp frame (wpE (defs₀ (F := F)) Variants.none c none) E (cc0__cs_reduce_kernel i arg2 harg2 arg3 harg3 arg4 harg4 arg5 harg5) K := by
  simp only [cc0__cs_reduce_kernel_eq_skeleton]; unfold cc0__cs_reduce_kernel_skel
  simp only [k0_part1_eq_skeleton]; unfold k0_part1_skel
  unfold owns
  iintro ⟨⟨%f0, %hf0, H0⟩, ⟨%f1, %hf1, H1⟩, ⟨%dO, %fO, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    sl_unfold_words
    rw [View.read_writes_eq_canon _ _ _ (cover1 _ _), View.canon_unit_zero (S := S1x1) z2]
    simp only [View.readAt_eq_ld, hf0, hf1, hfs, View.ld_unit_zero (S := S1x1) z2, View.ld_unit_zero (S := S8x8x12800) z3,
      View.readCov_unit_zero (S := S1x1) _ z2]
  iexists _; isplitr
  swap; · iexact HS
  ipureintro
  sl_unfold_words
  rw [View.read_writes_eq_canon _ _ _ (cover1 _ _), View.canon_unit_zero (S := S1x1) z2]
  simp only [View.readAt_eq_ld, hf0, hf1, hfs, View.ld_unit_zero (S := S1x1) z2, View.ld_unit_zero (S := S8x8x12800) z3]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The closed forms of the two conditions say which of the three cases the point is in.
    At the first point the invariant hands the scratch at anything and takes it back at the fold's first term; at a
    later point it hands it at the fold of the point before and takes it back at this point's. Off the last point
    the result buffer is handed back as found; at the last point it ends at the fold. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0 t], after0_0]
  rw [show (dat0 V c).leavesExact 1 t = owns (c : Thread nD τ) (st0_1 t) fullShare ((dat0 V c).after 1 t) from by
    unfold Dat.leavesExact; rw [live1 t], after0_1]
  have hN : t.val < 32 := lt_of_lt_of_eq t.isLt (show cfg0.N = 32 from N_0)
  by_cases hz : t.val = 0
  · have hcF : condF (grid0.coords t) := (hcondF t).mpr hz
    have hcL : ¬condL (grid0.coords t) := fun h => by have := (hcondL t).mp h; omega
    rw [Dat.leavesExact_idle (dat0 V c) 2 t (idle2 t hcL) (noFlush2 t hcL)]
    rw [acc0_at_first V c t hz]
    rw [PhiS_castSucc V c t, PhiS_zero V c _ _ hz, PhiA0_eq]
    iintro ⟨⟨⟨HS, Hr⟩, Hg⟩, Ho, ⟨%d0, H0⟩, ⟨%d1, H1⟩, H2⟩
    iapply (run_first c (grid0.coords t) _ _ _ _ _ _ _ _ hcF hcL (iblk0 V c 0 t) (iblk0 V c 1 t) Set.univ _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · by_cases hl : t.val = 31
    · have hcF : ¬condF (grid0.coords t) := fun h => hz ((hcondF t).mp h)
      have hcL : condL (grid0.coords t) := (hcondL t).mpr hl
      rw [show (dat0 V c).leavesExact 2 t = owns (c : Thread nD τ) (st0_2 t) fullShare ((dat0 V c).after 2 t) from by
        unfold Dat.leavesExact; rw [live2 t hcL], after0_2]
      rw [acc0_at_pos V c t hz]
      rw [PhiS_castSucc V c t, PhiS_pos V c _ _ hz]
      iintro ⟨⟨⟨HS, Hr⟩, Hg⟩, Ho, ⟨%d0, H0⟩, ⟨%d1, H1⟩, ⟨%d2, H2⟩⟩
      iapply (run_last c (grid0.coords t) _ _ _ _ _ _ _ _ hcF hcL (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hcF : ¬condF (grid0.coords t) := fun h => hz ((hcondF t).mp h)
      have hcL : ¬condL (grid0.coords t) := fun h => hl ((hcondL t).mp h)
      rw [Dat.leavesExact_idle (dat0 V c) 2 t (idle2 t hcL) (noFlush2 t hcL)]
      rw [acc0_at_pos V c t hz]
      rw [PhiS_castSucc V c t, PhiS_pos V c _ _ hz]
      iintro ⟨⟨⟨HS, Hr⟩, Hg⟩, Ho, ⟨%d0, H0⟩, ⟨%d1, H1⟩, H2⟩
      iapply (run_mid c (grid0.coords t) _ _ _ _ _ _ _ _ hcF hcL (iblk0 V c 0 t) (iblk0 V c 1 t) _ Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- After any point but the first the invariant gives the class's back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hr⟩, Hg⟩
  isplitl [HS Hr]
  · isplitl [HS]
    · iexists _; iexact HS
    iexact Hr
  iexact Hg

end Region0

/-- The library's body obligation, at every point. -/
theorem body_obligation0 (c : Dev nD) : BodyObligation (dat0 (F := F) V c) (defs₀ (F := F)) Variants.none () Set.univ := fun t => by
  rw [bigSep_W0, bigSep_W0]
  exact Region0.sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, Region0.PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c :=
  Region0.Phi_out0 V c _ (by rw [Fin.val_last]; have : cfg0.N = 32 := N_0; omega)

end Cert.KernelIdeal.Hand

end
-- ==== Proof.KI.Region1.lean ====
/-
  Region 1 (one grid point: the sum of a + b over a [200, 32] block, stored into a one-element
  result): the proof data and the body's obligation.
-/
import proofs.«152909_j65566970741223_1_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 1 on core `c`: the arrays as the region finds them; each input's buffer at its
    block after the body and the result's at the sum of the two blocks; the class's invariant (the scoped rest
    and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-! ## The two inputs' staging buffers hold their blocks -/

/-- Window 0 is an input the body only reads: whatever point the pipeline is at, fetched there or not, its
    current staging buffer holds the block of the first operand. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s; rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- Window 1, the second operand, likewise. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s; rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-! ## The body on whole buffers -/

/-- The one store of the body, through the whole [1, 1] rectangle, covers the result's buffer. -/
theorem cover_store1 (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  View.cover_of_tiled _ S1x1.size (by rfl) y

/-- The offsets of the body's loads and of its store are zero on every axis. -/
theorem zeros2 : (![0, 0] : Fin 2 → ℕ) = fun _ => 0 := by
  funext a; match a with | ⟨0, _⟩ => rfl | ⟨1, _⟩ => rfl

set_option maxHeartbeats 1000000 in
/-- The body, given the two operands' buffers at `x0` and `x1` and the result's buffer at anything, returns the
    operands' buffers as they were and the result's at the body's payload of them, `k1_pay1 x0 x1` (the
    add-reductions, one axis after the other, of `x0 + x1`): the two loads through the whole rectangle read the
    buffers themselves, and the one store through the whole [1, 1] rectangle leaves exactly its payload. -/
theorem sound_kernel1 (c : Dev nD) (E : Set ℕ) (i : grid1.Coords)
    (arg1 : Memref sig .tc .vmem S200x32 .f32) (harg1 : arg1.IsWhole)
    (arg2 : Memref sig .tc .vmem S200x32 .f32) (harg2 : arg2.IsWhole)
    (arg3 : Memref sig .tc .vmem S1x1 .f32) (harg3 : arg3.IsWhole)
    (x0 x1 : Vec F S200x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__tp_reduce_kernel i arg1 harg1 arg2 harg2 arg3 harg3) K := by
  simp only [cc1__tp_reduce_kernel_eq_skeleton]; unfold cc1__tp_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_store1 _), View.canon_unit_zero (S := S1x1) zeros2 inb_S1x1_S1x1_0_0,
    View.readAt_eq_ld, View.readAt_eq_ld,
    View.ld_unit_zero (S := S200x32) zeros2 inb_S200x32_S200x32_0_0, View.ld_unit_zero (S := S200x32) zeros2 inb_S200x32_S200x32_0_0]

/-! ## The body at a point of the grid -/

/-- The body as the pipeline calls it at point `t`, the three windows written out one by one: it is handed the
    invariant, the core's debts and each window's current staging buffer at what the pipeline left there, and
    returns the invariant and the debts unread, the operands' buffers at their blocks and the result's at the
    payload of the two blocks. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact body_at1 V c t

end Cert.KernelIdeal.Hand

end
-- ==== Proof.KI.Run.lean ====
/-
  The run of @main: three stretches of host operations around the two kernel regions.

  Between two items a core's unscoped buffers are held whole at a valuation: the launch memory,
  then each host stretch applied, then each region's arrays at what its write-backs leave (`W0` …
  `W5`). Each region enters from the valuation before it with its arrays split out, runs its
  pipeline under its body's obligation, and leaves at the next valuation. At the end every
  unscoped buffer of the final memory is read off `W5`.
-/
import proofs.«152909_j65566970741223_1_alg».proof.Proof.KI.Region0
import proofs.«152909_j65566970741223_1_alg».proof.Proof.KI.Region1
import proofs.«152909_j65566970741223_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the contents at the return. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation. -/
abbrev Tₙ (c : Dev nD) : sProp 𝕄 := StableHlo.held (c : Thread nD τ) (Pipeline.ucRefs τ sig) (W5 m c)

/-! ## The regions as segments -/

set_option backward.isDefEq.respectTransparency.types false in
/-- Region 0 entered from `W1`, left at `W2`. Its invariant is entered from the class's (`hin0`) and gives it back (`hout0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 entered from `W3`, left at `W4`; its invariant is the class's throughout. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      unfold Tₙ StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KI.RunArgs.lean ====
/-
  The arguments at the return: no host stretch writes an argument and no region may change one,
  so the last valuation holds each argument as launched; hence the frame.
-/
import proofs.«152909_j65566970741223_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

/-! ## No item writes an argument -/

theorem W2_main_arg2 (c : Dev nD) : W2 m c (Proc.devRef .tc main_arg2) = m ((c : Thread nD τ).loc main_arg2) :=
  (W2_of_ne m c main_arg2 (by decide)).trans <| (W1_of m c main_arg2 (by decide)).trans rfl
theorem W2_main_arg3 (c : Dev nD) : W2 m c (Proc.devRef .tc main_arg3) = m ((c : Thread nD τ).loc main_arg3) :=
  (W2_of_ne m c main_arg3 (by decide)).trans <| (W1_of m c main_arg3 (by decide)).trans rfl

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of_ne m c main_arg2 (by decide)).trans <| (W3_of m c main_arg2 (by decide)).trans <|
    W2_main_arg2 m c
theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans <|
    W2_main_arg3 m c

/-- The frame: every weakly fair execution of @main terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.KI.Final.lean ====
/-
  The two result arrays after their regions. Each result is a one-element [1, 1] array staged as ONE
  block that covers it, and each is written back exactly once: region 0's at the last point of its
  4 x 8 grid, where the scratch's fold has been copied into the staging buffer; region 1's at its
  only point. So each array ends holding what the body left in the staging buffer at that point.
-/
import proofs.«152909_j65566970741223_1_alg».proof.Proof.KI.Region0
import proofs.«152909_j65566970741223_1_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A [1, 1] array has one index: both coordinates are below 1. -/
theorem idx1x1_eq (x y : S1x1.Idx) : x = y :=
  Shape.idx_ext₂
    (by have hx : (x 0).val < 1 := (x 0).isLt; have hy : (y 0).val < 1 := (y 0).isLt; omega)
    (by have hx : (x 1).val < 1 := (x 1).isLt; have hy : (y 1).val < 1 := (y 1).isLt; omega)

/-! ## Region 0's result -/

/-- The only point of region 0 that writes the result back is the last one. -/
theorem flush0_2_last (t : Fin cfg0.N) (hf : (cfg0.win 2).flush t = true) : t = tLast0 := by
  have h := (flush0_2 t).mp hf
  have hlt : t.val < 32 := lt_of_lt_of_eq t.isLt N_0
  apply Fin.ext
  show t.val = 31
  omega

/-- After region 0 its result array holds what the scratch holds after the last point: the fold `acc0` over all
    32 points of the grid. -/
theorem final0 (c : Dev nD) : ((dat0 V c).arrAt 2 cfg0.N : Vec F S1x1 .f32) = acc0 V c tLast0.val tLast0.isLt := by
  refine (dat0 V c).arrAt_eq_of_cover 2 (acc0 V c tLast0.val tLast0.isLt) ?_ ?_
  · intro t hf
    obtain rfl := flush0_2_last t hf
    show (cfg0.win 2).cut (cfg0.grid.coords tLast0) ((dat0 V c).after 2 tLast0) = _
    rw [after0_2]
    funext y
    show acc0 V c tLast0.val tLast0.isLt y = acc0 V c tLast0.val tLast0.isLt (((cfg0.win 2).blk tLast0).view.emb y)
    exact congrArg _ (idx1x1_eq _ _)
  · intro i
    refine ⟨tLast0, (flush0_2 tLast0).mpr (by decide), ?_⟩
    have e : i = ((cfg0.win 2).blk tLast0).view.emb (i : S1x1.Idx) := idx1x1_eq _ _
    rw [e]
    exact View.emb_mem_set _ _

/-! ## Region 1's result -/

/-- After region 1 its result array holds the body's payload of the two operand blocks at the one point. -/
theorem final1 (c : Dev nD) : ((dat1 V c).arrAt 2 cfg1.N : Vec F S1x1 .f32) = out1 V c := by
  refine (dat1 V c).arrAt_eq_of_cover 2 (out1 V c) ?_ ?_
  · intro t hf
    obtain rfl := fin_N1 t
    show (cfg1.win 2).cut (cfg1.grid.coords t1_0) ((dat1 V c).after 2 t1_0) = _
    rw [after1_2]
    funext y
    show out1 V c y = out1 V c (((cfg1.win 2).blk t1_0).view.emb y)
    exact congrArg _ (idx1x1_eq _ _)
  · intro i
    refine ⟨t1_0, flush1_2 t1_0, ?_⟩
    have e : i = ((cfg1.win 2).blk t1_0).view.emb (i : S1x1.Idx) := idx1x1_eq _ _
    rw [e]
    exact View.emb_mem_set _ _

end Cert.KernelIdeal.Hand

end
-- ==== Proof.KI.RunValue.lean ====
/-
  What the final memory holds: each argument as launched, and the result as one term of the
  arguments — 20 times the scratch fold after region 0's last point plus 80640 times region 1's
  block sums, the regions reading reshapes of the arguments.
-/
import proofs.«152909_j65566970741223_1_alg».proof.Proof.KI.RunArgs
import proofs.«152909_j65566970741223_1_alg».proof.Proof.KI.Final
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions read -/

/-- Region 0 reads the [32, 64, 12800] reshapes of the first two arguments. -/
theorem V1_main_v0 (c : Dev nD) :
    V1 m c main_v0 = shapeCast S32x64x12800 (m ((c : Thread nD τ).loc main_arg0)) Facts₀.shapeCasts_S32x64x10x10x2x2x32_S32x64x12800 := by
  show StableHlo.after hostOps0 (W0 m c) (Proc.devRef .tc main_v0) = _
  after_results
  rfl
theorem V1_main_v1 (c : Dev nD) :
    V1 m c main_v1 = shapeCast S32x64x12800 (m ((c : Thread nD τ).loc main_arg1)) Facts₀.shapeCasts_S32x64x10x10x2x2x32_S32x64x12800 := by
  show StableHlo.after hostOps0 (W0 m c) (Proc.devRef .tc main_v1) = _
  after_results
  rfl

/-- Region 1 reads the [200, 32] reshapes of the last two arguments. -/
theorem V3_main_v4 (c : Dev nD) :
    V3 m c main_v4 = shapeCast S200x32 (m ((c : Thread nD τ).loc main_arg2)) Facts₀.shapeCasts_S10x10x2x32_S200x32 := by
  show StableHlo.after hostOps1 (W2 m c) (Proc.devRef .tc main_v4) = _
  after_results
  rw [W2_main_arg2]
  rfl
theorem V3_main_v5 (c : Dev nD) :
    V3 m c main_v5 = shapeCast S200x32 (m ((c : Thread nD τ).loc main_arg3)) Facts₀.shapeCasts_S10x10x2x32_S200x32 := by
  show StableHlo.after hostOps1 (W2 m c) (Proc.devRef .tc main_v5) = _
  after_results
  rw [W2_main_arg3]
  rfl

/-! ## The result -/

/-- Region 0's result array at its exit: the scratch fold after the last point. -/
theorem W2_main_v2 (c : Dev nD) : (W2 m c (Proc.devRef .tc main_v2) : Vec F S1x1 .f32) = acc0 (V1 m) c tLast0.val tLast0.isLt :=
  (W2_arr m c 2).trans (final0 (V1 m) c)
/-- Region 1's result array at its exit: the block sums. -/
theorem W4_main_v6 (c : Dev nD) : (W4 m c (Proc.devRef .tc main_v6) : Vec F S1x1 .f32) = out1 (V3 m) c :=
  (W4_arr m c 2).trans (final1 (V3 m) c)

/-- The result term: the host's last stretch applied to the two regions' results. -/
def outTerm (c : Dev nD) : FVec F S_ .f32 :=
  addf (mulf (shapeCast S_ (acc0 (V1 m) c tLast0.val tLast0.isLt) Facts₀.shapeCasts_S1x1_S_) (constant S_ .f32 0x41A00000#32))
    (mulf (shapeCast S_ (out1 (V3 m) c) Facts₀.shapeCasts_S1x1_S_) (constant S_ .f32 0x479D8000#32))

theorem W3_main_v3 (c : Dev nD) :
    (W3 m c (Proc.devRef .tc main_v3) : FVec F S_ .f32) = shapeCast S_ (acc0 (V1 m) c tLast0.val tLast0.isLt) Facts₀.shapeCasts_S1x1_S_ := by
  show StableHlo.after hostOps1 (W2 m c) (Proc.devRef .tc main_v3) = _
  after_results
  rw [W2_main_v2]
  rfl

theorem W5_main_v10 (c : Dev nD) : (W5 m c (Proc.devRef .tc main_v10) : FVec F S_ .f32) = outTerm m c := by
  show StableHlo.after hostOps2 (W4 m c) (Proc.devRef .tc main_v10) = _
  after_results
  rw [W4_of_ne m c main_v3 (by decide), W3_main_v3, W4_main_v6]
  rfl

/-! ## The run, read at the result and the arguments -/

/-- Every weakly fair execution of @main terminates, nothing faulting, with the result at `outTerm` and the
    arguments as launched. -/
theorem run_value : θ_run defs (onTc (τ := τ) (main (F := F))) ⟨m, fun _ => 0, ρ⟩ (fun r => ∀ c : Dev nD,
      r.2.mem ((c.tc : Thread nD τ).loc main_v10) = outTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v10 (by decide))).trans (W5_main_v10 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.KI.Idx.lean ====
/-
  Index maps of region 0's schedule, and the row mask, as plain functions.

  Grid point n (0 ≤ n < 32) of the 4 x 8 grid is row n / 8, column n % 8; its block of a
  [32, 64, 12800] array starts at (8 · (n / 8), 8 · (n % 8), 0). The mask keeps the array rows
  l < 63 of the second axis. The reference instead cuts the 7-axis array to its first 63 rows of
  the second axis; `emb63` is that cut's index map.
-/
import proofs.«152909_j65566970741223_1_alg».proof.KernelIdeal
import Idealize.ShloMosaic.Lib.ValueIdx

noncomputable section

namespace Cert.KernelIdeal.Hand

open Cert.KernelIdeal Idealize.ShloMosaic Idealize.ShloMosaic.ValueIdx

/-- The 7-axis array cut to 63 rows of its second axis. -/
abbrev S32x63x10x10x2x2x32 : Shape := ⟨7, ![32, 63, 10, 10, 2, 2, 32]⟩

/-- Element `y` of the block at grid point `n`, as an index of the [32, 64, 12800] array. -/
def blkIdx0 (n : ℕ) (y : S8x8x12800.Idx) : S32x64x12800.Idx :=
  ix3 (⟨(n / 8 % 4) * 8 + (y 0).val, by have : (y 0).val < 8 := (y 0).isLt; omega⟩ : Fin 32)
      (⟨(n % 8) * 8 + (y 1).val, by have : (y 1).val < 8 := (y 1).isLt; omega⟩ : Fin 64)
      (⟨(y 2).val, (y 2).isLt⟩ : Fin 12800)

/-- The row mask of grid point `n` at row `k` of its block: 1 where the array row is below 63, else 0. -/
def rowMask (n k : ℕ) : EReal := if (n % 8) * 8 + k < 63 then 1 else 0

/-- The cut's index map: the same coordinates, the second one read in the longer axis. -/
def emb63 (j : S32x63x10x10x2x2x32.Idx) : S32x64x10x10x2x2x32.Idx := fun a => match a with
  | ⟨0, _⟩ => ⟨(j 0).val, (j 0).isLt⟩
  | ⟨1, _⟩ => ⟨(j 1).val, by have h1 : (j 1).val < 63 := (j 1).isLt; show (j 1).val < 64; omega⟩
  | ⟨2, _⟩ => ⟨(j 2).val, (j 2).isLt⟩
  | ⟨3, _⟩ => ⟨(j 3).val, (j 3).isLt⟩
  | ⟨4, _⟩ => ⟨(j 4).val, (j 4).isLt⟩
  | ⟨5, _⟩ => ⟨(j 5).val, (j 5).isLt⟩
  | ⟨6, _⟩ => ⟨(j 6).val, (j 6).isLt⟩

end Cert.KernelIdeal.Hand

end
-- ==== Proof.KI.BlkIdx.lean ====
/-
  The regions' blocks as plain reads of the arrays: a block's element is the array's element at
  the block's place (index map times block size plus the coordinate inside the block).
-/
import proofs.«152909_j65566970741223_1_alg».proof.Proof.KI.Blocks
import proofs.«152909_j65566970741223_1_alg».proof.Proof.KI.Idx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- Region 0's index maps at a grid point: block row, block column, and the whole third axis. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0 :=
  (by decide +kernel : ∀ t : Fin grid0.N, _)

/-- Region 1's index maps are constantly zero. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

section
variable {F : FTy → Type} [FloatOps F]
variable (V : (c : Dev nD) → (b : Ref sig .tc) → Buf (Elt F) ((c : Thread nD τ).loc b))

/-- Region 0's blocks are reads of the two arrays at the block's place. -/
theorem iblk0_apply0 (c : Dev nD) (t : Fin cfg0.N) (y : S8x8x12800.Idx) :
    iblk0 V c 0 t y = V c main_v0 (blkIdx0 t.val y) := by
  obtain ⟨e0, e1, e2, -, -, -⟩ := idx_facts0 t
  have ht : t.val < 32 := lt_of_lt_of_eq t.isLt N_0
  show V c main_v0 (((cfg0.win 0).blk t).view.emb y) = V c main_v0 (blkIdx0 t.val y)
  refine congrArg _ ?_
  funext a; apply Fin.ext
  match a with
  | ⟨0, _⟩ => show win0_0.index t (0 : Fin 3) * 8 + 1 * (y 0).val = (t.val / 8 % 4) * 8 + (y 0).val; omega
  | ⟨1, _⟩ => show win0_0.index t (1 : Fin 3) * 8 + 1 * (y 1).val = (t.val % 8) * 8 + (y 1).val; omega
  | ⟨2, _⟩ => show win0_0.index t (2 : Fin 3) * 12800 + 1 * (y 2).val = (y 2).val; omega
theorem iblk0_apply1 (c : Dev nD) (t : Fin cfg0.N) (y : S8x8x12800.Idx) :
    iblk0 V c 1 t y = V c main_v1 (blkIdx0 t.val y) := by
  obtain ⟨-, -, -, e0, e1, e2⟩ := idx_facts0 t
  have ht : t.val < 32 := lt_of_lt_of_eq t.isLt N_0
  show V c main_v1 (((cfg0.win 1).blk t).view.emb y) = V c main_v1 (blkIdx0 t.val y)
  refine congrArg _ ?_
  funext a; apply Fin.ext
  match a with
  | ⟨0, _⟩ => show win0_1.index t (0 : Fin 3) * 8 + 1 * (y 0).val = (t.val / 8 % 4) * 8 + (y 0).val; omega
  | ⟨1, _⟩ => show win0_1.index t (1 : Fin 3) * 8 + 1 * (y 1).val = (t.val % 8) * 8 + (y 1).val; omega
  | ⟨2, _⟩ => show win0_1.index t (2 : Fin 3) * 12800 + 1 * (y 2).val = (y 2).val; omega

/-- Region 1's blocks are its two arrays whole. -/
theorem iblk1_apply0 (c : Dev nD) (t : Fin cfg1.N) (y : S200x32.Idx) :
    iblk1 V c 0 t y = V c main_v4 y := by
  obtain ⟨e0, e1, -, -⟩ := idx_facts1 t
  show V c main_v4 (((cfg1.win 0).blk t).view.emb y) = V c main_v4 y
  refine congrArg _ ?_
  funext a; apply Fin.ext
  match a with
  | ⟨0, _⟩ => show win1_0.index t (0 : Fin 2) * 200 + 1 * (y 0).val = (y 0).val; omega
  | ⟨1, _⟩ => show win1_0.index t (1 : Fin 2) * 32 + 1 * (y 1).val = (y 1).val; omega
theorem iblk1_apply1 (c : Dev nD) (t : Fin cfg1.N) (y : S200x32.Idx) :
    iblk1 V c 1 t y = V c main_v5 y := by
  obtain ⟨-, -, e0, e1⟩ := idx_facts1 t
  show V c main_v5 (((cfg1.win 1).blk t).view.emb y) = V c main_v5 y
  refine congrArg _ ?_
  funext a; apply Fin.ext
  match a with
  | ⟨0, _⟩ => show win1_1.index t (0 : Fin 2) * 200 + 1 * (y 0).val = (y 0).val; omega
  | ⟨1, _⟩ => show win1_1.index t (1 : Fin 2) * 32 + 1 * (y 1).val = (y 1).val; omega
end

end Cert.KernelIdeal.Hand

end
-- ==== Proof.KI.PayIdx.lean ====
/-
  The kernels' stored values read at an index, over the extended reals, and the blocks as plain
  reads of the arrays.

  Region 0's update at a grid point is the scratch's value plus the sum, over the block, of
  (a + b) times the row mask; the reset value is 0. Region 1's value is the sum of a over its
  block plus the sum of b.
-/
import proofs.«152909_j65566970741223_1_alg».proof.Proof.KI.Blocks
import proofs.«152909_j65566970741223_1_alg».proof.Proof.KI.Idx
import proofs.«152909_j65566970741223_1_alg».proof.Proof.KI.BlkIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- A grid point's coordinates are its row and its column. -/
theorem coords_val (t : Fin cfg0.N) : ((grid0.coords t) 0).val = t.val / 8 ∧ ((grid0.coords t) 1).val = t.val % 8 :=
  (by decide +kernel : ∀ t : Fin grid0.N, ((grid0.coords t) 0).val = t.val / 8 ∧ ((grid0.coords t) 1).val = t.val % 8) t

/-- The reset value is zero. -/
theorem pay1_apply (j : S1x1.Idx) : k0_pay1 (F := Ideal) j = 0 := by
  unfold k0_pay1
  rw [shapeCast_self]
  exact Ideal.ofBits_zero_f32

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The mask's word: with block column n and block row m both below 8 nothing wraps, and the signed
    comparison with 63 widened to 32 bits is the word 1 exactly when 8 n + m < 63. -/
theorem mask_word : ∀ n m : Fin 8,
    (IntOp.cmpi .slt (IntOp.addi (Scalar.muli (BitVec.ofNat 32 n.val) 8#32) (BitVec.ofNat 32 (0 * 8 + m.val))) 63#32).setWidth 32
      = if n.val * 8 + m.val < 63 then 1#32 else 0#32 := by decide +kernel

/-- The row mask at row b of a block in block column n: 1 on array rows below 63, else 0. -/
theorem mask_apply (n : Fin 8) (a : Fin 1) (b : Fin 8) (c : Fin 1) :
    (sitofp .f32 (extui 32 (cmpi .slt (addi (broadcast S1x8x1 (Scalar.muli (BitVec.ofNat 32 n.val) 8#32))
        (iota .tc S1x8x1 32 [1] iota_S1x8x1_d1_w32)) (broadcast S1x8x1 63#32)) natLt_1_32) : FVec Ideal S1x8x1 .f32) (ix3 a b c)
      = if n.val * 8 + b.val < 63 then (1 : EReal) else 0 := by
  show FloatOps.sitofp (F := Ideal) .f32
      ((IntOp.cmpi .slt (IntOp.addi (Scalar.muli (BitVec.ofNat 32 n.val) 8#32) (BitVec.ofNat 32 (0 * 8 + b.val))) 63#32).setWidth 32) = _
  rw [mask_word n b]
  by_cases h : n.val * 8 + b.val < 63
  · rw [if_pos h, if_pos h]
    show ((((1#32 : BitVec 32).toInt : ℤ) : ℝ) : EReal) = 1
    rw [show (1#32 : BitVec 32).toInt = 1 from by decide]
    simp
  · rw [if_neg h, if_neg h]
    show ((((0#32 : BitVec 32).toInt : ℤ) : ℝ) : EReal) = 0
    rw [show (0#32 : BitVec 32).toInt = 0 from by decide]
    simp

/-- The three chained single-axis sums (last axis, then rows, then the leading axis, each with a
    zero accumulator, the unit axes put back and dropped in between) are the triple sum over the
    block's coordinates. -/
theorem red3_apply (w : FVec Ideal S8x8x12800 .f32) (hφ : FKind.Formats .f32)
    (hacc : (0x00000000#32 : BitVec 32) = FKind.add.neutral .f32 hφ) (j : S1x1.Idx) :
    shapeCast S1x1
        (shapeCast S1x1x1
          (multiReduction .add [0] S1x1
            (shapeCast S8x1x1
              (multiReduction .add [1] S8x1
                (shapeCast S8x8x1
                  (multiReduction .add [2] S8x8 w 0x00000000#32 reduces_S8x8x12800_S8x8 hφ hacc)
                  shapeCasts_S8x8_S8x8x1)
                0x00000000#32 reduces_S8x8x1_S8x1 hφ hacc)
              shapeCasts_S8x1_S8x1x1)
            0x00000000#32 reduces_S8x1x1_S1x1 hφ hacc)
          shapeCasts_S1x1_S1x1x1)
        shapeCasts_S1x1x1_S1x1 j
      = ∑ a : Fin 8, ∑ b : Fin 8, ∑ c : Fin 12800, w (ix3 a b c) := by
  rw [shapeCast_shapeCast]
  refine (Ideal.multiReduction_add_single _ _ reduces_S8x1x1_S1x1 _ _ _).trans ?_
  show ∑ a : Fin 8, _ = _
  refine Finset.sum_congr rfl fun a _ => ?_
  refine (shapeCast_apply _ shapeCasts_S8x1_S8x1x1 _ (ix2 a (0 : Fin 1)) ?_).trans ?_
  · rw [Shape.rowMajor_val_two, Shape.rowMajor_val_three]
    show a.val * 1 + 0 = (a.val * 1 + (j 0).val) * 1 + (j 1).val
    have h0 : (j 0).val < 1 := (j 0).isLt
    have h1 : (j 1).val < 1 := (j 1).isLt
    omega
  refine (Ideal.multiReduction_add_single _ _ reduces_S8x8x1_S8x1 _ _ _).trans ?_
  show ∑ b : Fin 8, _ = _
  refine Finset.sum_congr rfl fun b _ => ?_
  refine (shapeCast_apply _ shapeCasts_S8x8_S8x8x1 _ (ix2 a b) ?_).trans ?_
  · rw [Shape.rowMajor_val_two, Shape.rowMajor_val_three]
    show a.val * 8 + b.val = (a.val * 8 + b.val) * 1 + 0
    omega
  refine (Ideal.multiReduction_add_single _ _ reduces_S8x8x12800_S8x8 _ _ _).trans ?_
  show ∑ c : Fin 12800, _ = _
  refine Finset.sum_congr rfl fun c _ => ?_
  refine congrArg w ?_
  funext d
  match d with
  | ⟨0, _⟩ => exact Fin.ext rfl
  | ⟨1, _⟩ => exact Fin.ext rfl
  | ⟨2, _⟩ => exact Fin.ext rfl

/-- Region 0's update at a point: what the scratch held plus the masked sum over the block. -/
theorem pay2_apply (i : grid0.Coords) (v13 v15 : Vec Ideal S8x8x12800 .f32) (v26 : Vec Ideal S1x1 .f32) (j : S1x1.Idx) :
    k0_pay2 (F := Ideal) i v13 v15 v26 j
      = v26 j + ∑ y : S8x8x12800.Idx, (v13 y + v15 y) * (if (i 1).val * 8 + (y 1).val < 63 then (1 : EReal) else 0) := by
  have hi : (i 1).val < 8 := (i 1).isLt
  unfold k0_pay2
  rw [shapeCast_self, shapeCast_self, shapeCast_self]
  refine (addf_apply _ _ j).trans ?_
  refine congrArg (v26 j + ·) ?_
  refine (red3_apply _ _ _ j).trans ?_
  rw [sum_idx3]
  refine Finset.sum_congr rfl fun a _ => Finset.sum_congr rfl fun b _ => Finset.sum_congr rfl fun c _ => ?_
  refine (mulf_apply _ _ (ix3 a b c)).trans ?_
  refine congrArg ((v13 (ix3 a b c) + v15 (ix3 a b c)) * ·) ?_
  refine (broadcastTo_apply _ broadcasts_S1x8x1_S8x8x12800 (ix3 a b c) (ix3 (0 : Fin 1) b (0 : Fin 1)) ?_).trans ?_
  · intro d
    match d with
    | ⟨0, _⟩ => rfl
    | ⟨1, _⟩ => rfl
    | ⟨2, _⟩ => rfl
  exact mask_apply ⟨(i 1).val, hi⟩ 0 b 0

/-- Region 1's value: the two blocks' sums. The inner reduction sums each row, the outer one the
    rows' sums; the double sum of a + b splits into the two arrays' total sums. -/
theorem pay_tp_apply (v0 v2 : Vec Ideal S200x32 .f32) (j : S1x1.Idx) :
    k1_pay1 (F := Ideal) v0 v2 j = (∑ y : S200x32.Idx, v0 y) + ∑ y : S200x32.Idx, v2 y := by
  unfold k1_pay1
  rw [shapeCast_self, shapeCast_self]
  refine (shapeCast_addUnit_apply (![1] : Fin 1 → Nat) _ shapeCasts_S1_S1x1 j).trans ?_
  refine (Ideal.multiReduction_add_single _ _ reduces_S200x1_S1 _ _ _).trans ?_
  rw [sum_idx2 v0, sum_idx2 v2, ← Finset.sum_add_distrib]
  show ∑ r : Fin 200, _ = _
  refine Finset.sum_congr rfl fun r _ => ?_
  refine (shapeCast_apply _ shapeCasts_S200_S200x1 _ (ix1 r) ?_).trans ?_
  · rw [Shape.rowMajor_val_one, Shape.rowMajor_val_two]
    show r.val = r.val * 1 + (j 1).val
    have : (j 1).val < 1 := (j 1).isLt
    omega
  refine (Ideal.multiReduction_add_single _ _ reduces_S200x32_S200 _ _ _).trans ?_
  rw [← Finset.sum_add_distrib]
  show ∑ k : Fin 32, _ = _
  refine Finset.sum_congr rfl fun k _ => ?_
  have hi : reduces_S200x32_S200.lift (ix1 r) k = ix2 r k := by
    funext a
    match a with
    | ⟨0, _⟩ => exact Fin.ext rfl
    | ⟨1, _⟩ => exact Fin.ext rfl
  rw [hi]
  rfl

end Cert.KernelIdeal.Hand

end
-- ==== Proof.KI.Sums.lean ====
/-
  Sum identities behind the equivalence, over the extended reals.

  A row-major reshape re-indexes an array by a bijection, so it keeps the sum of all entries.
  The masked block sums of the 32 grid points, taken over the [32, 64, 12800] reshape of a 7-axis
  array, add up to the plain sum over the array cut to 63 rows: the blocks tile the array, the
  mask removes exactly row 63, and the reshape keeps the first two coordinates.
-/
import proofs.«152909_j65566970741223_1_alg».proof.Proof.KI.Idx
import Idealize.ShloMosaic.Lib.Pipeline.Value

noncomputable section

open scoped BigOperators

namespace Cert.KernelIdeal.Hand

open Cert.KernelIdeal Idealize.ShloMosaic Idealize.ShloMosaic.ValueIdx

/-- A reshape keeps the sum of all entries. -/
theorem sum_shapeCast {α : Type} [AddCommMonoid α] {s t : Shape} (x : s.Idx → α) (h : s.ShapeCasts t) :
    ∑ j : t.Idx, shapeCast t x h j = ∑ i : s.Idx, x i :=
  Equiv.sum_comp (Shape.reshapeEquiv h) x

/-- Multiplying by the mask (a 0 or a 1) distributes over a sum of two extended reals. -/
theorem add_mul_rowMask (a b : EReal) (n k : ℕ) :
    (a + b) * rowMask n k = a * rowMask n k + b * rowMask n k := by
  unfold rowMask
  split
  · simp only [mul_one]
  · simp only [mul_zero, add_zero]

/-- The last five axes [10, 10, 2, 2, 32] hold 12800 elements. -/
theorem numel5 : (⟨5, fun a : Fin 5 => (![32, 64, 10, 10, 2, 2, 32] : Fin 7 → ℕ) a.succ.succ⟩ : Shape).numel = 12800 := by
  simp [Shape.numel, Fin.prod_univ_succ]

/-- The last six axes [64, 10, 10, 2, 2, 32] hold 819200 elements. -/
theorem numel6 : (⟨6, fun a : Fin 6 => (![32, 64, 10, 10, 2, 2, 32] : Fin 7 → ℕ) a.succ⟩ : Shape).numel = 819200 := by
  simp [Shape.numel, Fin.prod_univ_succ]

/-- The row-major position of a 7-axis index: its first two coordinates weigh 64 · 12800 and 12800, and the
    last five coordinates contribute a remainder below 12800. -/
theorem rowMajor7_val (k : S32x64x10x10x2x2x32.Idx) :
    ∃ r : ℕ, r < 12800 ∧ (S32x64x10x10x2x2x32.rowMajor k).val = ((k 0).val * 64 + (k 1).val) * 12800 + r := by
  have e1 := Shape.rowMajor_val_succ (n := 6) (d := ![32, 64, 10, 10, 2, 2, 32]) k
  have e2 := Shape.rowMajor_val_succ (n := 5) (d := fun a => (![32, 64, 10, 10, 2, 2, 32] : Fin 7 → ℕ) a.succ) (fun a => k a.succ)
  have hlt := lt_of_lt_of_eq ((⟨5, fun a : Fin 5 => (![32, 64, 10, 10, 2, 2, 32] : Fin 7 → ℕ) a.succ.succ⟩ : Shape).rowMajor fun a => k a.succ.succ).isLt numel5
  have h01 : (k (Fin.succ 0)).val = (k 1).val := rfl
  refine ⟨_, hlt, ?_⟩
  have e3 : (S32x64x10x10x2x2x32.rowMajor k).val = _ := e1
  rw [e3, e2, h01]
  generalize ((⟨5, fun a : Fin 5 => (![32, 64, 10, 10, 2, 2, 32] : Fin 7 → ℕ) a.succ.succ⟩ : Shape).rowMajor fun a => k a.succ.succ).val = r
  rw [numel5, numel6]
  omega

/-- The mask as a function of the array row alone: 1 below row 63, else 0. -/
def rowKeep (k : ℕ) : EReal := if k < 63 then 1 else 0

/-- The blocks of the 4 x 8 grid tile the [32, 64, 12800] array: a grid point and a position in its
    block, against the array index. Row r of the array is in grid row r / 8 at block row r % 8, and
    the same for the columns. -/
def tileEquiv : Fin 32 × S8x8x12800.Idx ≃ S32x64x12800.Idx where
  toFun p := blkIdx0 p.1.val p.2
  invFun i :=
    (⟨((i 0).val / 8) * 8 + (i 1).val / 8, by
        have h0 : (i 0).val < 32 := (i 0).isLt
        have h1 : (i 1).val < 64 := (i 1).isLt
        omega⟩,
      ix3 (⟨(i 0).val % 8, Nat.mod_lt _ (by norm_num)⟩ : Fin 8) (⟨(i 1).val % 8, Nat.mod_lt _ (by norm_num)⟩ : Fin 8)
        (⟨(i 2).val, (i 2).isLt⟩ : Fin 12800))
  left_inv := by
    rintro ⟨n, y⟩
    have hn : n.val < 32 := n.isLt
    have h0 : (y 0).val < 8 := (y 0).isLt
    have h1 : (y 1).val < 8 := (y 1).isLt
    refine Prod.ext (Fin.ext ?_) (funext fun a => ?_)
    · show ((n.val / 8 % 4) * 8 + (y 0).val) / 8 * 8 + ((n.val % 8) * 8 + (y 1).val) / 8 = n.val
      omega
    · match a with
      | ⟨0, _⟩ => exact Fin.ext (by show ((n.val / 8 % 4) * 8 + (y 0).val) % 8 = (y 0).val; omega)
      | ⟨1, _⟩ => exact Fin.ext (by show ((n.val % 8) * 8 + (y 1).val) % 8 = (y 1).val; omega)
      | ⟨2, _⟩ => rfl
  right_inv := by
    intro i
    have h0 : (i 0).val < 32 := (i 0).isLt
    have h1 : (i 1).val < 64 := (i 1).isLt
    funext a
    match a with
    | ⟨0, _⟩ =>
      exact Fin.ext (by
        show ((((i 0).val / 8) * 8 + (i 1).val / 8) / 8 % 4) * 8 + (i 0).val % 8 = (i 0).val
        omega)
    | ⟨1, _⟩ =>
      exact Fin.ext (by
        show ((((i 0).val / 8) * 8 + (i 1).val / 8) % 8) * 8 + (i 1).val % 8 = (i 1).val
        omega)
    | ⟨2, _⟩ => rfl

/-- Summing a function of the array index over every block of the grid is summing it over the array. -/
theorem sum_blocks_tile {M : Type} [AddCommMonoid M] (g : S32x64x12800.Idx → M) :
    ∑ n ∈ Finset.range 32, ∑ y : S8x8x12800.Idx, g (blkIdx0 n y) = ∑ i : S32x64x12800.Idx, g i := by
  rw [← Fin.sum_univ_eq_sum_range (fun n => ∑ y : S8x8x12800.Idx, g (blkIdx0 n y)) 32]
  rw [← Equiv.sum_comp tileEquiv g, Fintype.sum_prod_type]
  rfl

/-- The [32, 64, 12800] index at the same row-major position as a 7-axis index has the same second coordinate. -/
theorem reshape_coord1 (h : S32x64x10x10x2x2x32.ShapeCasts S32x64x12800) (i : S32x64x12800.Idx) :
    (Shape.reshapeEquiv h i 1).val = (i 1).val := by
  obtain ⟨r, hr, e7⟩ := rowMajor7_val (Shape.reshapeEquiv h i)
  have e := Shape.rowMajor_reshapeEquiv h i
  have e3 : (S32x64x12800.rowMajor i).val = ((i 0).val * 64 + (i 1).val) * 12800 + (i 2).val :=
    Shape.rowMajor_val_three (d := ![32, 64, 12800]) i
  rw [e7, e3] at e
  have a1 : ((Shape.reshapeEquiv h i) 1).val < 64 := ((Shape.reshapeEquiv h i) 1).isLt
  have b1 : (i 1).val < 64 := (i 1).isLt
  have b2 : (i 2).val < 12800 := (i 2).isLt
  omega

/-- The masked sum over the reshape is the masked sum over the 7-axis array. -/
theorem sum_reshape_keep (x : S32x64x10x10x2x2x32.Idx → EReal) (h : S32x64x10x10x2x2x32.ShapeCasts S32x64x12800) :
    ∑ i : S32x64x12800.Idx, shapeCast S32x64x12800 x h i * rowKeep (i 1).val
      = ∑ k : S32x64x10x10x2x2x32.Idx, x k * rowKeep (k 1).val := by
  rw [← Equiv.sum_comp (Shape.reshapeEquiv h) (fun k => x k * rowKeep (k 1).val)]
  refine Finset.sum_congr rfl fun i _ => ?_
  show x (Shape.reshapeEquiv h i) * rowKeep (i 1).val
    = x (Shape.reshapeEquiv h i) * rowKeep ((Shape.reshapeEquiv h i) 1).val
  rw [reshape_coord1]

/-- An index of the 7-axis array below row 63 of its second axis, as an index of the cut array. -/
def cut63 (i : S32x64x10x10x2x2x32.Idx) (h : (i 1).val < 63) : S32x63x10x10x2x2x32.Idx := fun a => match a with
  | ⟨0, _⟩ => ⟨(i 0).val, (i 0).isLt⟩
  | ⟨1, _⟩ => ⟨(i 1).val, h⟩
  | ⟨2, _⟩ => ⟨(i 2).val, (i 2).isLt⟩
  | ⟨3, _⟩ => ⟨(i 3).val, (i 3).isLt⟩
  | ⟨4, _⟩ => ⟨(i 4).val, (i 4).isLt⟩
  | ⟨5, _⟩ => ⟨(i 5).val, (i 5).isLt⟩
  | ⟨6, _⟩ => ⟨(i 6).val, (i 6).isLt⟩

/-- The masked sum over the 7-axis array is the sum over the array cut to 63 rows. -/
theorem sum_keep_cut (x : S32x64x10x10x2x2x32.Idx → EReal) :
    ∑ k : S32x64x10x10x2x2x32.Idx, x k * rowKeep (k 1).val = ∑ j : S32x63x10x10x2x2x32.Idx, x (emb63 j) := by
  have h1 : ∀ k : S32x64x10x10x2x2x32.Idx, x k * rowKeep (k 1).val = if (k 1).val < 63 then x k else 0 := by
    intro k
    unfold rowKeep
    split
    · rw [mul_one]
    · rw [mul_zero]
  rw [Finset.sum_congr rfl fun k _ => h1 k, ← Finset.sum_filter]
  symm
  refine Finset.sum_bij' (fun j _ => emb63 j) (fun k hk => cut63 k (Finset.mem_filter.1 hk).2) ?_ ?_ ?_ ?_ ?_
  · intro j _
    exact Finset.mem_filter.2 ⟨Finset.mem_univ _, (j 1).isLt⟩
  · intro k _
    exact Finset.mem_univ _
  · intro j _
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  · intro k hk
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  · intro j _
    rfl

/-- The masked block sums over the grid are the sum over the array cut to 63 rows. -/
theorem sum_blocks_masked (x : S32x64x10x10x2x2x32.Idx → EReal) (h : S32x64x10x10x2x2x32.ShapeCasts S32x64x12800) :
    ∑ n ∈ Finset.range 32, ∑ y : S8x8x12800.Idx, shapeCast S32x64x12800 x h (blkIdx0 n y) * rowMask n (y 1).val
      = ∑ j : S32x63x10x10x2x2x32.Idx, x (emb63 j) := by
  rw [← sum_keep_cut, ← sum_reshape_keep x h, ← sum_blocks_tile]
  exact Finset.sum_congr rfl fun n _ => Finset.sum_congr rfl fun y _ => rfl

end Cert.KernelIdeal.Hand

end
-- ==== Proof.KI.Math.lean ====
/-
  The kernel's result and the reference's are one number, over the extended reals.

  Kernel: 20 · (the scratch fold after the last point) + 80640 · (region 1's block sums). The fold
  is the sum over the 32 grid points of the masked block sums of a + b, which is the sum of a over
  the array cut to 63 rows plus that of b; region 1's value is the sum of its two [200, 32]
  arrays, reshapes of the reference's two [10, 10, 2, 32] arrays. The reference computes the same
  four sums directly. Only commutativity and associativity of + and the laws x · 1 = x, x · 0 = 0
  are used, so no finiteness of the inputs is needed.
-/
import proofs.«152909_j65566970741223_1_alg».proof.Proof.KI.PayIdx
import proofs.«152909_j65566970741223_1_alg».proof.Proof.KI.Sums
import proofs.«152909_j65566970741223_1_alg».proof.Proof.Gen.ReferenceIdeal.Read

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (V V' : (c : Dev nD) → (b : Ref sig .tc) → Buf (Elt Ideal) ((c : Thread nD τ).loc b))

/-- Region 0's two arrays as the region finds them, as functions into the extended reals. -/
abbrev arrA (c : Dev nD) : S32x64x12800.Idx → EReal := V c main_v0
abbrev arrB (c : Dev nD) : S32x64x12800.Idx → EReal := V c main_v1

/-- One point's update of the scratch: what it held plus the masked sum, over the point's block, of the two
    arrays read at the block's place. The column coordinate of point `n` is `n % 8`, so the body's mask is
    `rowMask n`. -/
theorem step0_apply (c : Dev nD) (n : ℕ) (hn : n < cfg0.N) (prev : Vec Ideal S1x1 .f32) (j : S1x1.Idx) :
    step0 (F := Ideal) V c n hn prev j
      = prev j + ∑ y : S8x8x12800.Idx,
          (arrA V c (blkIdx0 n y) + arrB V c (blkIdx0 n y)) * rowMask n (y 1).val := by
  unfold step0
  rw [pay2_apply]
  refine congrArg (prev j + ·) (Finset.sum_congr rfl fun y _ => ?_)
  rw [iblk0_apply0, iblk0_apply1, (coords_val ⟨n, hn⟩).2]
  rfl

/-- The scratch after point `n`: the masked block sums of the points up to `n`. -/
theorem acc0_apply (c : Dev nD) (n : ℕ) (hn : n < cfg0.N) (j : S1x1.Idx) :
    acc0 (F := Ideal) V c n hn j
      = ∑ s ∈ Finset.range (n + 1), ∑ y : S8x8x12800.Idx,
          (arrA V c (blkIdx0 s y) + arrB V c (blkIdx0 s y)) * rowMask s (y 1).val := by
  induction n with
  | zero =>
    rw [acc0_zero, step0_apply, pay1_apply, Finset.sum_range_succ, Finset.sum_range_zero]
  | succ n ih =>
    rw [acc0_succ, step0_apply, ih, Finset.sum_range_succ _ (n + 1)]

/-! ## The two sides at the result's one index -/

/-- The cut's index map is the one the reference's slice reads through. -/
theorem emb63_eq_v0 : emb63 = Cert.ReferenceIdeal.Read.idx_main_v0 := by
  funext j a
  match a with
  | ⟨0, _⟩ => rfl | ⟨1, _⟩ => rfl | ⟨2, _⟩ => rfl | ⟨3, _⟩ => rfl | ⟨4, _⟩ => rfl | ⟨5, _⟩ => rfl | ⟨6, _⟩ => rfl
theorem emb63_eq_v2 : emb63 = Cert.ReferenceIdeal.Read.idx_main_v2 := by
  funext j a
  match a with
  | ⟨0, _⟩ => rfl | ⟨1, _⟩ => rfl | ⟨2, _⟩ => rfl | ⟨3, _⟩ => rfl | ⟨4, _⟩ => rfl | ⟨5, _⟩ => rfl | ⟨6, _⟩ => rfl

/-- Region 0's fold after the last point, over reshaped arrays: the sums of the two 7-axis arrays cut to 63 rows. -/
theorem acc0_last (c : Dev nD) (x0 x1 : (⟨S32x64x10x10x2x2x32, .f32⟩ : BufTy).Contents (Elt Ideal))
    (h0 : V c main_v0 = shapeCast S32x64x12800 x0 Facts₀.shapeCasts_S32x64x10x10x2x2x32_S32x64x12800)
    (h1 : V c main_v1 = shapeCast S32x64x12800 x1 Facts₀.shapeCasts_S32x64x10x10x2x2x32_S32x64x12800) (j : S1x1.Idx) :
    acc0 (F := Ideal) V c tLast0.val tLast0.isLt j
      = (∑ k : S32x63x10x10x2x2x32.Idx, (x0 (emb63 k) : EReal)) + ∑ k : S32x63x10x10x2x2x32.Idx, (x1 (emb63 k) : EReal) := by
  have eA : arrA V c = shapeCast S32x64x12800 x0 Facts₀.shapeCasts_S32x64x10x10x2x2x32_S32x64x12800 := h0
  have eB : arrB V c = shapeCast S32x64x12800 x1 Facts₀.shapeCasts_S32x64x10x10x2x2x32_S32x64x12800 := h1
  rw [acc0_apply, eA, eB]
  show ∑ s ∈ Finset.range 32, _ = _
  simp only [add_mul_rowMask, Finset.sum_add_distrib]
  rw [sum_blocks_masked, sum_blocks_masked]

/-- Region 1's value, over reshaped arrays: the sums of the two 4-axis arrays. -/
theorem out1_apply (c : Dev nD) (x2 x3 : (⟨S10x10x2x32, .f32⟩ : BufTy).Contents (Elt Ideal))
    (h2 : V' c main_v4 = shapeCast S200x32 x2 Facts₀.shapeCasts_S10x10x2x32_S200x32)
    (h3 : V' c main_v5 = shapeCast S200x32 x3 Facts₀.shapeCasts_S10x10x2x32_S200x32) (j : S1x1.Idx) :
    out1 (F := Ideal) V' c j = (∑ k : S10x10x2x32.Idx, (x2 k : EReal)) + ∑ k : S10x10x2x32.Idx, (x3 k : EReal) := by
  unfold out1
  rw [pay_tp_apply]
  have e0 : iblk1 V' c 0 t1_0 = shapeCast S200x32 x2 Facts₀.shapeCasts_S10x10x2x32_S200x32 := by
    rw [← h2]; funext y; exact iblk1_apply0 V' c t1_0 y
  have e1 : iblk1 V' c 1 t1_0 = shapeCast S200x32 x3 Facts₀.shapeCasts_S10x10x2x32_S200x32 := by
    rw [← h3]; funext y; exact iblk1_apply1 V' c t1_0 y
  rw [e0, e1, sum_shapeCast, sum_shapeCast]

/-- The kernel's result at its one index. -/
theorem kernel_side (c : Dev nD)
    (x0 x1 : (⟨S32x64x10x10x2x2x32, .f32⟩ : BufTy).Contents (Elt Ideal)) (x2 x3 : (⟨S10x10x2x32, .f32⟩ : BufTy).Contents (Elt Ideal))
    (h0 : V c main_v0 = shapeCast S32x64x12800 x0 Facts₀.shapeCasts_S32x64x10x10x2x2x32_S32x64x12800)
    (h1 : V c main_v1 = shapeCast S32x64x12800 x1 Facts₀.shapeCasts_S32x64x10x10x2x2x32_S32x64x12800)
    (h2 : V' c main_v4 = shapeCast S200x32 x2 Facts₀.shapeCasts_S10x10x2x32_S200x32)
    (h3 : V' c main_v5 = shapeCast S200x32 x3 Facts₀.shapeCasts_S10x10x2x32_S200x32) (i : S_.Idx) :
    (addf (mulf (shapeCast S_ (acc0 (F := Ideal) V c tLast0.val tLast0.isLt) Facts₀.shapeCasts_S1x1_S_) (constant S_ .f32 0x41A00000#32))
        (mulf (shapeCast S_ (out1 (F := Ideal) V' c) Facts₀.shapeCasts_S1x1_S_) (constant S_ .f32 0x479D8000#32)) : FVec Ideal S_ .f32) i
      = ((∑ k : S32x63x10x10x2x2x32.Idx, (x0 (emb63 k) : EReal)) + ∑ k : S32x63x10x10x2x2x32.Idx, (x1 (emb63 k) : EReal))
          * Ideal.ofBits .f32 0x41A00000#32
        + ((∑ k : S10x10x2x32.Idx, (x2 k : EReal)) + ∑ k : S10x10x2x32.Idx, (x3 k : EReal)) * Ideal.ofBits .f32 0x479D8000#32 := by
  rw [addf_apply, mulf_apply, mulf_apply, constant_apply, constant_apply]
  unfold shapeCast
  rw [acc0_last V c x0 x1 h0 h1, out1_apply V' c x2 x3 h2 h3]

/-- The reference's last stage at its one index. -/
theorem reference_side
    (x0 x1 : (⟨S32x64x10x10x2x2x32, .f32⟩ : BufTy).Contents (Elt Ideal)) (x2 x3 : (⟨S10x10x2x32, .f32⟩ : BufTy).Contents (Elt Ideal)) (i : S_.Idx) :
    Cert.ReferenceIdeal.Read.val_main_v10 (F := Ideal) x0 x1 x2 x3 i
      = ((∑ k : S32x63x10x10x2x2x32.Idx, (x0 (emb63 k) : EReal)) + ∑ k : S32x63x10x10x2x2x32.Idx, (x1 (emb63 k) : EReal))
          * Ideal.ofBits .f32 0x41A00000#32
        + ((∑ k : S10x10x2x32.Idx, (x2 k : EReal)) + ∑ k : S10x10x2x32.Idx, (x3 k : EReal)) * Ideal.ofBits .f32 0x479D8000#32 := by
  rw [Cert.ReferenceIdeal.Read.val_main_v10_apply, Cert.ReferenceIdeal.Read.val_main_v8_apply, Cert.ReferenceIdeal.Read.val_main_v9_apply,
    Cert.ReferenceIdeal.Read.val_main_v4_apply, Cert.ReferenceIdeal.Read.val_main_v7_apply,
    Cert.ReferenceIdeal.Read.val_main_v1_apply, Cert.ReferenceIdeal.Read.val_main_v3_apply,
    Cert.ReferenceIdeal.Read.val_main_v5_apply, Cert.ReferenceIdeal.Read.val_main_v6_apply,
    Cert.ReferenceIdeal.Read.val_main_cst_apply, Cert.ReferenceIdeal.Read.val_main_cst_0_apply,
    Cert.ReferenceIdeal.Read.val_main_cst_1_apply, Cert.ReferenceIdeal.Read.val_main_cst_2_apply,
    Cert.ReferenceIdeal.Read.val_main_cst_3_apply, Cert.ReferenceIdeal.Read.val_main_cst_4_apply]
  simp only [Cert.ReferenceIdeal.Read.val_main_v0_apply, Cert.ReferenceIdeal.Read.val_main_v2_apply,
    Ideal.addf_def, Ideal.mulf_def, Ideal.ofBits_def, Ideal.ofBits_zero_f32, zero_add, ← emb63_eq_v0, ← emb63_eq_v2]

/-- The kernel's result term is the reference's last stage. -/
theorem value_eq (c : Dev nD)
    (x0 x1 : (⟨S32x64x10x10x2x2x32, .f32⟩ : BufTy).Contents (Elt Ideal)) (x2 x3 : (⟨S10x10x2x32, .f32⟩ : BufTy).Contents (Elt Ideal))
    (h0 : V c main_v0 = shapeCast S32x64x12800 x0 Facts₀.shapeCasts_S32x64x10x10x2x2x32_S32x64x12800)
    (h1 : V c main_v1 = shapeCast S32x64x12800 x1 Facts₀.shapeCasts_S32x64x10x10x2x2x32_S32x64x12800)
    (h2 : V' c main_v4 = shapeCast S200x32 x2 Facts₀.shapeCasts_S10x10x2x32_S200x32)
    (h3 : V' c main_v5 = shapeCast S200x32 x3 Facts₀.shapeCasts_S10x10x2x32_S200x32) :
    (addf (mulf (shapeCast S_ (acc0 (F := Ideal) V c tLast0.val tLast0.isLt) Facts₀.shapeCasts_S1x1_S_) (constant S_ .f32 0x41A00000#32))
        (mulf (shapeCast S_ (out1 (F := Ideal) V' c) Facts₀.shapeCasts_S1x1_S_) (constant S_ .f32 0x479D8000#32)) : FVec Ideal S_ .f32)
      = Cert.ReferenceIdeal.Read.val_main_v10 (F := Ideal) x0 x1 x2 x3 := by
  funext i
  rw [kernel_side V V' c x0 x1 x2 x3 h0 h1 h2 h3 i, reference_side x0 x1 x2 x3 i]

end Cert.KernelIdeal.Hand

end
-- ==== Proof.lean ====
/-
  The certificate: the Pallas kernel (two regions among three stretches of host operations) computes
  what the jnp reference computes, as extended reals.

  Both compute  20 · (Σ cs_mu[:, :-1] + Σ cs_var[:, :-1]) + 80640 · (Σ trans_p_mu + Σ trans_p_var).
  The kernel gets the first bracket by accumulating, over a 4 x 8 grid of [8, 8, 12800] blocks of the
  [32, 64, 12800] reshapes, the block sums of (cs_mu + cs_var) times a row mask that removes row 63 of
  the second axis; the second bracket is one block sum over the [200, 32] reshapes. Reshapes re-index
  by bijections, the blocks tile the arrays, the mask is 0 or 1, and + is commutative and associative on
  the extended reals, so the two sides agree for every input: the precondition is not used.

  The frames: each kernel program runs its segments in order (Proof/KI/Run.lean, and the same text
  for the word-level program under Proof/K/), every argument array left as launched; the reference's
  frame is its run with the result dropped. The ideal pass rewrote nothing, so `preserves` is trivial.
-/
import proofs.«152909_j65566970741223_1_alg».proof.Defs
import proofs.«152909_j65566970741223_1_alg».proof.Proof.Gen.Kernel
import proofs.«152909_j65566970741223_1_alg».proof.Proof.Gen.KernelIdeal
import proofs.«152909_j65566970741223_1_alg».proof.Proof.Gen.ReferenceIdeal
import proofs.«152909_j65566970741223_1_alg».proof.Proof.Gen.Pre_finite_inputs
import proofs.«152909_j65566970741223_1_alg».proof.Proof.Gen.ReferenceIdeal.Run
import proofs.«152909_j65566970741223_1_alg».proof.Proof.Gen.ReferenceIdeal.Read
import proofs.«152909_j65566970741223_1_alg».proof.Proof.K.RunArgs
import proofs.«152909_j65566970741223_1_alg».proof.Proof.KI.RunValue
import proofs.«152909_j65566970741223_1_alg».proof.Proof.KI.Math
import Idealize.ShloMosaic.Adequacy
import Idealize.ShloMosaic.Init

noncomputable section

namespace Cert.Proof

open Idealize.ShloMosaic Idealize.ShloMosaic.TcCoe Idealize.SL.Sem

/-- The word-level kernel runs to the end with its arguments unchanged. -/
theorem frame_k : Cert.frame_Kernel := fun m ρ _ => Cert.Kernel.Hand.frame m ρ

/-- The idealized kernel runs to the end with its arguments unchanged. -/
theorem frame_ki : Cert.frame_KernelIdeal := fun m ρ _ => Cert.KernelIdeal.Hand.frame m ρ

/-- The reference runs to the end with its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories agreeing on the arguments, the idealized kernel ends with its result at the term
    `outTerm` of its arguments and the reference with its composed term of the same arguments: one number. -/
theorem algebraic : Cert.algebraic_KernelIdeal_ReferenceIdeal := by
  intro m ρ m' ρ' _ hagree
  refine ⟨fun c => Cert.KernelIdeal.Hand.outTerm m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2]
  exact (Cert.KernelIdeal.Hand.value_eq (Cert.KernelIdeal.Hand.V1 m) (Cert.KernelIdeal.Hand.V3 m) c _ _ _ _
    (Cert.KernelIdeal.Hand.V1_main_v0 m c) (Cert.KernelIdeal.Hand.V1_main_v1 m c)
    (Cert.KernelIdeal.Hand.V3_main_v4 m c) (Cert.KernelIdeal.Hand.V3_main_v5 m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
